-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x128x1024 : Shape := ⟨3, ![32, 128, 1024]⟩
abbrev S65536x1024 : Shape := ⟨2, ![65536, 1024]⟩
abbrev S65536 : Shape := ⟨1, ![65536]⟩
abbrev S262144 : Shape := ⟨1, ![262144]⟩
abbrev S512 : Shape := ⟨1, ![512]⟩
abbrev S2x262144 : Shape := ⟨2, ![2, 262144]⟩
abbrev S_ : Shape := ⟨0, ![]⟩

class Facts : Prop where
  bcast_S_S32x128x1024 : S_.BroadcastsInDim S32x128x1024 (![] : Fin 0 → Fin S32x128x1024.rank)
  reducesTo_S32x128x1024_S_d0_1_2 : S32x128x1024.ReducesTo [0, 1, 2] S_
  h_S_ : 0 < S_.numel
  bcast_S_S65536x1024 : S_.BroadcastsInDim S65536x1024 (![] : Fin 0 → Fin S65536x1024.rank)
  reducesTo_S65536x1024_S_d0_1 : S65536x1024.ReducesTo [0, 1] S_
  bcast_S_S65536 : S_.BroadcastsInDim S65536 (![] : Fin 0 → Fin S65536.rank)
  reducesTo_S65536_S_d0 : S65536.ReducesTo [0] S_
  bcast_S_S262144 : S_.BroadcastsInDim S262144 (![] : Fin 0 → Fin S262144.rank)
  reducesTo_S262144_S_d0 : S262144.ReducesTo [0] S_

variable [Facts]

def fn_part1 {F : FTy → Type} [FloatOps F] (main_v13 : IVec S_ 1) (main_v16 : IVec S262144 1) : IVec S_ 1 :=
  let main_c_5 : IVec S_ 1 := constantI S_ 1 1#1
  let main_v17 : IVec S_ 1 := (fun x v => Host.reduce IntOp.andi x v reducesTo_S262144_S_d0 h_S_) main_v16 main_c_5
  let main_v18 : IVec S_ 1 := andi main_v13 main_v17
  main_v18

def fn {F : FTy → Type} [FloatOps F] (main_arg0 : FVec F S32x128x1024 .f32) (main_arg1 : FVec F S65536x1024 .f32) (main_arg2 : FVec F S65536 .f32) (main_arg3 : FVec F S262144 .f32) (main_arg4 : IVec S512 32) (main_arg5 : IVec S512 32) (main_arg6 : IVec S2x262144 32) : IVec S_ 1 :=
  let main_v0 : FVec F S32x128x1024 .f32 := Host.absf main_arg0
  let main_cst : FVec F S_ .f32 := constant S_ .f32 0x7F800000#32
  let main_v1 : FVec F S32x128x1024 .f32 := broadcastInDim S32x128x1024 ![] bcast_S_S32x128x1024 main_cst
  let main_v2 : IVec S32x128x1024 1 := cmpf .olt main_v0 main_v1
  let main_c : IVec S_ 1 := constantI S_ 1 1#1
  let main_v3 : IVec S_ 1 := (fun x v => Host.reduce IntOp.andi x v reducesTo_S32x128x1024_S_d0_1_2 h_S_) main_v2 main_c
  let main_v4 : FVec F S65536x1024 .f32 := Host.absf main_arg1
  let main_cst_0 : FVec F S_ .f32 := constant S_ .f32 0x7F800000#32
  let main_v5 : FVec F S65536x1024 .f32 := broadcastInDim S65536x1024 ![] bcast_S_S65536x1024 main_cst_0
  let main_v6 : IVec S65536x1024 1 := cmpf .olt main_v4 main_v5
  let main_c_1 : IVec S_ 1 := constantI S_ 1 1#1
  let main_v7 : IVec S_ 1 := (fun x v => Host.reduce IntOp.andi x v reducesTo_S65536x1024_S_d0_1 h_S_) main_v6 main_c_1
  let main_v8 : IVec S_ 1 := andi main_v3 main_v7
  let main_v9 : FVec F S65536 .f32 := Host.absf main_arg2
  let main_cst_2 : FVec F S_ .f32 := constant S_ .f32 0x7F800000#32
  let main_v10 : FVec F S65536 .f32 := broadcastInDim S65536 ![] bcast_S_S65536 main_cst_2
  let main_v11 : IVec S65536 1 := cmpf .olt main_v9 main_v10
  let main_c_3 : IVec S_ 1 := constantI S_ 1 1#1
  let main_v12 : IVec S_ 1 := (fun x v => Host.reduce IntOp.andi x v reducesTo_S65536_S_d0 h_S_) main_v11 main_c_3
  let main_v13 : IVec S_ 1 := andi main_v8 main_v12
  let main_v14 : FVec F S262144 .f32 := Host.absf main_arg3
  let main_cst_4 : FVec F S_ .f32 := constant S_ .f32 0x7F800000#32
  let main_v15 : FVec F S262144 .f32 := broadcastInDim S262144 ![] bcast_S_S262144 main_cst_4
  let main_v16 : IVec S262144 1 := cmpf .olt main_v14 main_v15
  fn_part1 (F := F) main_v13 main_v16
-- ==== Kernel.lean ====
abbrev S32x128x1024 : Shape := ⟨3, ![32, 128, 1024]⟩
abbrev S65536x1024 : Shape := ⟨2, ![65536, 1024]⟩
abbrev S65536 : Shape := ⟨1, ![65536]⟩
abbrev S262144 : Shape := ⟨1, ![262144]⟩
abbrev S512 : Shape := ⟨1, ![512]⟩
abbrev S2x262144 : Shape := ⟨2, ![2, 262144]⟩
abbrev S_ : Shape := ⟨0, ![]⟩
abbrev S512x1 : Shape := ⟨2, ![512, 1]⟩
abbrev S512x2 : Shape := ⟨2, ![512, 2]⟩
abbrev S512x1024 : Shape := ⟨2, ![512, 1024]⟩
abbrev S1024 : Shape := ⟨1, ![1024]⟩
abbrev S1x1024 : Shape := ⟨2, ![1, 1024]⟩
abbrev S512x65536 : Shape := ⟨2, ![512, 65536]⟩
abbrev S1024x1024 : Shape := ⟨2, ![1024, 1024]⟩
abbrev S1x262144 : Shape := ⟨2, ![1, 262144]⟩
abbrev S65536x512 : Shape := ⟨2, ![65536, 512]⟩
abbrev S262144x1 : Shape := ⟨2, ![262144, 1]⟩
abbrev S262144x512 : Shape := ⟨2, ![262144, 512]⟩

abbrev nBuf : Space → Nat
  | .hbm => 88
  | .vmem => 7
  | .smem => 0
  | _ => 0

abbrev bufTy : (tb : Table) → Fin (tcTables nBuf tb) → BufTy
  | .hbm, ⟨0, _⟩ => ⟨S32x128x1024, .f32⟩
  | .hbm, ⟨1, _⟩ => ⟨S65536x1024, .f32⟩
  | .hbm, ⟨2, _⟩ => ⟨S65536, .f32⟩
  | .hbm, ⟨3, _⟩ => ⟨S262144, .f32⟩
  | .hbm, ⟨4, _⟩ => ⟨S512, .i32⟩
  | .hbm, ⟨5, _⟩ => ⟨S512, .i32⟩
  | .hbm, ⟨6, _⟩ => ⟨S2x262144, .i32⟩
  | .hbm, ⟨7, _⟩ => ⟨S_, .i32⟩
  | .hbm, ⟨8, _⟩ => ⟨S512, .i32⟩
  | .hbm, ⟨9, _⟩ => ⟨S512, .i1⟩
  | .hbm, ⟨10, _⟩ => ⟨S_, .i32⟩
  | .hbm, ⟨11, _⟩ => ⟨S512, .i32⟩
  | .hbm, ⟨12, _⟩ => ⟨S512, .i32⟩
  | .hbm, ⟨13, _⟩ => ⟨S512, .i32⟩
  | .hbm, ⟨14, _⟩ => ⟨S_, .i32⟩
  | .hbm, ⟨15, _⟩ => ⟨S512, .i32⟩
  | .hbm, ⟨16, _⟩ => ⟨S512, .i1⟩
  | .hbm, ⟨17, _⟩ => ⟨S_, .i32⟩
  | .hbm, ⟨18, _⟩ => ⟨S512, .i32⟩
  | .hbm, ⟨19, _⟩ => ⟨S512, .i32⟩
  | .hbm, ⟨20, _⟩ => ⟨S512, .i32⟩
  | .hbm, ⟨21, _⟩ => ⟨S512x1, .i32⟩
  | .hbm, ⟨22, _⟩ => ⟨S512x1, .i32⟩
  | .hbm, ⟨23, _⟩ => ⟨S512x2, .i32⟩
  | .hbm, ⟨24, _⟩ => ⟨S512x1024, .f32⟩
  | .hbm, ⟨25, _⟩ => ⟨S_, .f32⟩
  | .hbm, ⟨26, _⟩ => ⟨S1024, .f32⟩
  | .hbm, ⟨27, _⟩ => ⟨S_, .f32⟩
  | .hbm, ⟨28, _⟩ => ⟨S1024, .f32⟩
  | .hbm, ⟨29, _⟩ => ⟨S1024, .f32⟩
  | .hbm, ⟨30, _⟩ => ⟨S_, .i32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | .hbm, ⟨37, _⟩ => ⟨S512x1024, .f32⟩
  | .hbm, ⟨38, _⟩ => ⟨S512x1024, .f32⟩
  | .hbm, ⟨39, _⟩ => ⟨S512x1024, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S1024, .f32⟩
  | .hbm, ⟨45, _⟩ => ⟨S1024, .f32⟩
  | .hbm, ⟨46, _⟩ => ⟨S1024, .f32⟩
  | .hbm, ⟨47, _⟩ => ⟨S_, .f32⟩
  | .hbm, ⟨48, _⟩ => ⟨S_, .i1⟩
  | .hbm, ⟨49, _⟩ => ⟨S_, .f32⟩
  | .hbm, ⟨50, _⟩ => ⟨S_, .f32⟩
  | .hbm, ⟨51, _⟩ => ⟨S1024, .f32⟩
  | .hbm, ⟨52, _⟩ => ⟨S1024, .f32⟩
  | .hbm, ⟨53, _⟩ => ⟨S1x1024, .f32⟩
  | .hbm, ⟨54, _⟩ => ⟨S512x1024, .f32⟩
  | .hbm, ⟨55, _⟩ => ⟨S512x1024, .f32⟩
  | .hbm, ⟨56, _⟩ => ⟨S_, .f32⟩
  | .hbm, ⟨57, _⟩ => ⟨S1024, .f32⟩
  | .hbm, ⟨58, _⟩ => ⟨S1024, .f32⟩
  | .hbm, ⟨59, _⟩ => ⟨S1024, .f32⟩
  | .hbm, ⟨60, _⟩ => ⟨S1x1024, .f32⟩
  | .hbm, ⟨61, _⟩ => ⟨S512x1024, .f32⟩
  | .hbm, ⟨62, _⟩ => ⟨S512x1024, .f32⟩
  | .hbm, ⟨63, _⟩ => ⟨S512x1024, .bf16⟩
  | .hbm, ⟨64, _⟩ => ⟨S512x65536, .f32⟩
  | .hbm, ⟨65, _⟩ => ⟨S1x262144, .i32⟩
  | .hbm, ⟨66, _⟩ => ⟨S262144, .i32⟩
  | .hbm, ⟨67, _⟩ => ⟨S1x262144, .i32⟩
  | .hbm, ⟨68, _⟩ => ⟨S262144, .i32⟩
  | .hbm, ⟨69, _⟩ => ⟨S65536x512, .f32⟩
  | .hbm, ⟨70, _⟩ => ⟨S_, .i32⟩
  | .hbm, ⟨71, _⟩ => ⟨S262144, .i32⟩
  | .hbm, ⟨72, _⟩ => ⟨S262144, .i1⟩
  | .hbm, ⟨73, _⟩ => ⟨S_, .i32⟩
  | .hbm, ⟨74, _⟩ => ⟨S262144, .i32⟩
  | .hbm, ⟨75, _⟩ => ⟨S262144, .i32⟩
  | .hbm, ⟨76, _⟩ => ⟨S262144, .i32⟩
  | .hbm, ⟨77, _⟩ => ⟨S262144x1, .i32⟩
  | .hbm, ⟨78, _⟩ => ⟨S262144x512, .f32⟩
  | .hbm, ⟨79, _⟩ => ⟨S262144x1, .f32⟩
  | .hbm, ⟨80, _⟩ => ⟨S262144x512, .f32⟩
  | .hbm, ⟨81, _⟩ => ⟨S262144x512, .f32⟩
  | .hbm, ⟨82, _⟩ => ⟨S_, .f32⟩
  | .hbm, ⟨83, _⟩ => ⟨S65536x512, .f32⟩
  | .hbm, ⟨84, _⟩ => ⟨S262144x1, .i32⟩
  | .hbm, ⟨85, _⟩ => ⟨S65536x512, .f32⟩
  | .hbm, ⟨86, _⟩ => ⟨S512x65536, .f32⟩
  | .hbm, ⟨87, _⟩ => ⟨S512x65536, .f32⟩
  | .local _ .vmem, ⟨0, _⟩ => ⟨S512x1024, .bf16⟩
  | .local _ .vmem, ⟨1, _⟩ => ⟨S1024x1024, .f32⟩
  | .local _ .vmem, ⟨2, _⟩ => ⟨S1024x1024, .f32⟩
  | .local _ .vmem, ⟨3, _⟩ => ⟨S1024, .f32⟩
  | .local _ .vmem, ⟨4, _⟩ => ⟨S1024, .f32⟩
  | .local _ .vmem, ⟨5, _⟩ => ⟨S512x1024, .f32⟩
  | .local _ .vmem, ⟨6, _⟩ => ⟨S512x1024, .f32⟩
  | _, _ => ⟨S32x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_c_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_c_4 : Ref sig .tc := ⟨.hbm, 30, rfl⟩
abbrev main_call0_cst : Ref sig .tc := ⟨.hbm, 31, rfl⟩
abbrev main_call0_v0 : Ref sig .tc := ⟨.hbm, 32, rfl⟩
abbrev main_call0_v1 : Ref sig .tc := ⟨.hbm, 33, rfl⟩
abbrev main_call0_cst_0 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_v6 : Ref sig .tc := ⟨.hbm, 39, rfl⟩
abbrev main_call0_v7 : Ref sig .tc := ⟨.hbm, 40, rfl⟩
abbrev main_call0_cst_1 : Ref sig .tc := ⟨.hbm, 41, rfl⟩
abbrev main_call0_v8 : Ref sig .tc := ⟨.hbm, 42, rfl⟩
abbrev main_call0_cst_2 : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_cst_3 : Ref sig .tc := ⟨.hbm, 47, rfl⟩
abbrev main_call0_v12 : Ref sig .tc := ⟨.hbm, 48, rfl⟩
abbrev main_call0_cst_4 : Ref sig .tc := ⟨.hbm, 49, rfl⟩
abbrev main_call0_call0_v0 : Ref sig .tc := ⟨.hbm, 50, rfl⟩
abbrev main_call0_call0_v1 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_cst_5 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_c_6 : Ref sig .tc := ⟨.hbm, 70, rfl⟩
abbrev main_v34 : Ref sig .tc := ⟨.hbm, 71, rfl⟩
abbrev main_v35 : Ref sig .tc := ⟨.hbm, 72, rfl⟩
abbrev main_c_7 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_cst_8 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S512 : S_.BroadcastsInDim S512 (![] : Fin 0 → Fin S512.rank)
  bcast_S512_S512x1_0 : S512.BroadcastsInDim S512x1 (![0] : Fin 1 → Fin S512x1.rank)
  concatenates_S512x1_S512x1_S512x2_d1 : Shape.Concatenates [S512x1, S512x1] S512x2 1
  reducesTo_S512x1024_S1024_d0 : S512x1024.ReducesTo [0] S1024
  h_S_ : 0 < S_.numel
  bcast_S_S1024 : S_.BroadcastsInDim S1024 (![] : Fin 0 → Fin S1024.rank)
  bcast_S1024_S1x1024_1 : S1024.BroadcastsInDim S1x1024 (![1] : Fin 1 → Fin S1x1024.rank)
  bcast_S_S1x1024 : S_.BroadcastsInDim S1x1024 (![] : Fin 0 → Fin S1x1024.rank)
  bcast_S1x1024_S512x1024_0_1 : S1x1024.BroadcastsInDim S512x1024 (![0, 1] : Fin 2 → Fin S512x1024.rank)
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  inb_S1024_S1024_0 : ∀ a, (![0] : Fin 1 → Nat) a + S1024.size a ≤ S1024.size a
  h_S1024 : 0 < S1024.numel
  shapeCasts_S1024_S1x1024 : S1024.ShapeCasts S1x1024
  shapeCasts_S1x1024_S1x1024 : S1x1024.ShapeCasts S1x1024
  broadcasts_S1x1024_S512x1024 : S1x1024.Broadcasts S512x1024
  slices_S2x262144_S1x262144_0_0 : S2x262144.Slices ![0, 0] S1x262144
  shapeCasts_S1x262144_S262144 : S1x262144.ShapeCasts S262144
  slices_S2x262144_S1x262144_1_0 : S2x262144.Slices ![1, 0] S1x262144
  transposes_S512x65536_S65536x512_1_0 : S512x65536.Transposes [1, 0] S65536x512
  bcast_S_S262144 : S_.BroadcastsInDim S262144 (![] : Fin 0 → Fin S262144.rank)
  bcast_S262144_S262144x1_0 : S262144.BroadcastsInDim S262144x1 (![0] : Fin 1 → Fin S262144x1.rank)
  bcast_S262144x1_S262144x512_0_1 : S262144x1.BroadcastsInDim S262144x512 (![0, 1] : Fin 2 → Fin S262144x512.rank)
  bcast_S_S65536x512 : S_.BroadcastsInDim S65536x512 (![] : Fin 0 → Fin S65536x512.rank)
  transposes_S65536x512_S512x65536_1_0 : S65536x512.Transposes [1, 0] S512x65536
  gather_S32x128x1024_S512x2_S512x1024_1_01_n_n_01_1_111024_wf : GatherDims.WF S32x128x1024 S512x2 S512x1024 [1] [0, 1] [] [0, 1] [] 1 ![1, 1, 1024]
  dot_S512x1024_S1024x1024_S512x1024_1_1_0_0_n_n_wf : DotDims.WF S512x1024 S1024x1024 S512x1024 [1] [1] [0] [0] [] []
  gather_S65536x512_S262144x1_S262144x512_1_0_n_n_0_1_1512_wf : GatherDims.WF S65536x512 S262144x1 S262144x512 [1] [0] [] [0] [] 1 ![1, 512]
  scatter_S65536x512_S262144x1_S262144x512_1_0_0_1_wf : ScatterDims.WF S65536x512 S262144x1 S262144x512 [1] [0] [0] 1
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S512x1024.size a
  hwx0_0 : ∀ i : grid0.Coords, EltTy.bits .bf16 = 32 ∨ (Rect.block (s := S512x1024) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S65536x1024.size a
  hwx0_1 : ∀ i : grid0.Coords, EltTy.bits .f32 = 32 ∨ (Rect.block (s := S65536x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S65536.size a
  hwx0_2 : ∀ i : grid0.Coords, EltTy.bits .f32 = 32 ∨ (Rect.block (s := S65536) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S512x65536.size a
  hwx0_3 : ∀ i : grid0.Coords, EltTy.bits .f32 = 32 ∨ (Rect.block (s := S512x65536) S512x1024.size (cc0_transform_3 i) (hinb0_3 i)).WholeWords (EltTy.packing .f32)

variable [Facts₀]

def gather_S32x128x1024_S512x2_S512x1024_1_01_n_n_01_1_111024 : GatherDims S32x128x1024 S512x2 S512x1024 where
  offsetDims := [1]
  collapsedSliceDims := [0, 1]
  operandBatchingDims := []
  startIndicesBatchingDims := []
  startIndexMap := [0, 1]
  indexVectorDim := 1
  sliceSizes := ![1, 1, 1024]
  wf := gather_S32x128x1024_S512x2_S512x1024_1_01_n_n_01_1_111024_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def gather_S65536x512_S262144x1_S262144x512_1_0_n_n_0_1_1512 : GatherDims S65536x512 S262144x1 S262144x512 where
  offsetDims := [1]
  collapsedSliceDims := [0]
  operandBatchingDims := []
  startIndicesBatchingDims := []
  startIndexMap := [0]
  indexVectorDim := 1
  sliceSizes := ![1, 512]
  wf := gather_S65536x512_S262144x1_S262144x512_1_0_n_n_0_1_1512_wf
def scatter_S65536x512_S262144x1_S262144x512_1_0_0_1 : ScatterDims S65536x512 S262144x1 S262144x512 where
  updateWindowDims := [1]
  insertedWindowDims := [0]
  scatterDimsToOperandDims := [0]
  indexVectorDim := 1
  wf := scatter_S65536x512_S262144x1_S262144x512_1_0_0_1_wf

abbrev win0_0 : Pipeline.Window sig grid0 :=
  Pipeline.Window.ofSpec (Memref.whole main_v27) S512x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v28) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x128x1024 : Shape := ⟨3, ![32, 128, 1024]⟩
abbrev S65536x1024 : Shape := ⟨2, ![65536, 1024]⟩
abbrev S65536 : Shape := ⟨1, ![65536]⟩
abbrev S262144 : Shape := ⟨1, ![262144]⟩
abbrev S512 : Shape := ⟨1, ![512]⟩
abbrev S2x262144 : Shape := ⟨2, ![2, 262144]⟩
abbrev S_ : Shape := ⟨0, ![]⟩
abbrev S512x1 : Shape := ⟨2, ![512, 1]⟩
abbrev S512x2 : Shape := ⟨2, ![512, 2]⟩
abbrev S512x1024 : Shape := ⟨2, ![512, 1024]⟩
abbrev S1024 : Shape := ⟨1, ![1024]⟩
abbrev S1x1024 : Shape := ⟨2, ![1, 1024]⟩
abbrev S1024x65536 : Shape := ⟨2, ![1024, 65536]⟩
abbrev S512x65536 : Shape := ⟨2, ![512, 65536]⟩
abbrev S1x65536 : Shape := ⟨2, ![1, 65536]⟩
abbrev S1x262144 : Shape := ⟨2, ![1, 262144]⟩
abbrev S65536x512 : Shape := ⟨2, ![65536, 512]⟩
abbrev S262144x1 : Shape := ⟨2, ![262144, 1]⟩
abbrev S262144x512 : Shape := ⟨2, ![262144, 512]⟩

abbrev nBuf : Space → Nat
  | .hbm => 100
  | .vmem => 0
  | .smem => 0
  | _ => 0

abbrev bufTy : (tb : Table) → Fin (tcTables nBuf tb) → BufTy
  | .hbm, ⟨0, _⟩ => ⟨S32x128x1024, .f32⟩
  | .hbm, ⟨1, _⟩ => ⟨S65536x1024, .f32⟩
  | .hbm, ⟨2, _⟩ => ⟨S65536, .f32⟩
  | .hbm, ⟨3, _⟩ => ⟨S262144, .f32⟩
  | .hbm, ⟨4, _⟩ => ⟨S512, .i32⟩
  | .hbm, ⟨5, _⟩ => ⟨S512, .i32⟩
  | .hbm, ⟨6, _⟩ => ⟨S2x262144, .i32⟩
  | .hbm, ⟨7, _⟩ => ⟨S_, .i32⟩
  | .hbm, ⟨8, _⟩ => ⟨S512, .i32⟩
  | .hbm, ⟨9, _⟩ => ⟨S512, .i1⟩
  | .hbm, ⟨10, _⟩ => ⟨S_, .i32⟩
  | .hbm, ⟨11, _⟩ => ⟨S512, .i32⟩
  | .hbm, ⟨12, _⟩ => ⟨S512, .i32⟩
  | .hbm, ⟨13, _⟩ => ⟨S512, .i32⟩
  | .hbm, ⟨14, _⟩ => ⟨S_, .i32⟩
  | .hbm, ⟨15, _⟩ => ⟨S512, .i32⟩
  | .hbm, ⟨16, _⟩ => ⟨S512, .i1⟩
  | .hbm, ⟨17, _⟩ => ⟨S_, .i32⟩
  | .hbm, ⟨18, _⟩ => ⟨S512, .i32⟩
  | .hbm, ⟨19, _⟩ => ⟨S512, .i32⟩
  | .hbm, ⟨20, _⟩ => ⟨S512, .i32⟩
  | .hbm, ⟨21, _⟩ => ⟨S512x1, .i32⟩
  | .hbm, ⟨22, _⟩ => ⟨S512x1, .i32⟩
  | .hbm, ⟨23, _⟩ => ⟨S512x2, .i32⟩
  | .hbm, ⟨24, _⟩ => ⟨S512x1024, .f32⟩
  | .hbm, ⟨25, _⟩ => ⟨S_, .f32⟩
  | .hbm, ⟨26, _⟩ => ⟨S1024, .f32⟩
  | .hbm, ⟨27, _⟩ => ⟨S_, .f32⟩
  | .hbm, ⟨28, _⟩ => ⟨S1024, .f32⟩
  | .hbm, ⟨29, _⟩ => ⟨S1024, .f32⟩
  | .hbm, ⟨30, _⟩ => ⟨S_, .i32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | .hbm, ⟨37, _⟩ => ⟨S512x1024, .f32⟩
  | .hbm, ⟨38, _⟩ => ⟨S512x1024, .f32⟩
  | .hbm, ⟨39, _⟩ => ⟨S512x1024, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S1024, .f32⟩
  | .hbm, ⟨45, _⟩ => ⟨S1024, .f32⟩
  | .hbm, ⟨46, _⟩ => ⟨S1024, .f32⟩
  | .hbm, ⟨47, _⟩ => ⟨S_, .f32⟩
  | .hbm, ⟨48, _⟩ => ⟨S_, .i1⟩
  | .hbm, ⟨49, _⟩ => ⟨S_, .f32⟩
  | .hbm, ⟨50, _⟩ => ⟨S_, .f32⟩
  | .hbm, ⟨51, _⟩ => ⟨S1024, .f32⟩
  | .hbm, ⟨52, _⟩ => ⟨S1024, .f32⟩
  | .hbm, ⟨53, _⟩ => ⟨S1x1024, .f32⟩
  | .hbm, ⟨54, _⟩ => ⟨S512x1024, .f32⟩
  | .hbm, ⟨55, _⟩ => ⟨S512x1024, .f32⟩
  | .hbm, ⟨56, _⟩ => ⟨S_, .f32⟩
  | .hbm, ⟨57, _⟩ => ⟨S1024, .f32⟩
  | .hbm, ⟨58, _⟩ => ⟨S1024, .f32⟩
  | .hbm, ⟨59, _⟩ => ⟨S1024, .f32⟩
  | .hbm, ⟨60, _⟩ => ⟨S1x1024, .f32⟩
  | .hbm, ⟨61, _⟩ => ⟨S512x1024, .f32⟩
  | .hbm, ⟨62, _⟩ => ⟨S512x1024, .f32⟩
  | .hbm, ⟨63, _⟩ => ⟨S1024x65536, .f32⟩
  | .hbm, ⟨64, _⟩ => ⟨S512x65536, .f32⟩
  | .hbm, ⟨65, _⟩ => ⟨S1x65536, .f32⟩
  | .hbm, ⟨66, _⟩ => ⟨S512x65536, .f32⟩
  | .hbm, ⟨67, _⟩ => ⟨S512x65536, .f32⟩
  | .hbm, ⟨68, _⟩ => ⟨S512x65536, .f32⟩
  | .hbm, ⟨69, _⟩ => ⟨S512x65536, .f32⟩
  | .hbm, ⟨70, _⟩ => ⟨S_, .f32⟩
  | .hbm, ⟨71, _⟩ => ⟨S512x65536, .f32⟩
  | .hbm, ⟨72, _⟩ => ⟨S512x65536, .f32⟩
  | .hbm, ⟨73, _⟩ => ⟨S_, .f32⟩
  | .hbm, ⟨74, _⟩ => ⟨S512x65536, .f32⟩
  | .hbm, ⟨75, _⟩ => ⟨S512x65536, .f32⟩
  | .hbm, ⟨76, _⟩ => ⟨S512x65536, .f32⟩
  | .hbm, ⟨77, _⟩ => ⟨S1x262144, .i32⟩
  | .hbm, ⟨78, _⟩ => ⟨S262144, .i32⟩
  | .hbm, ⟨79, _⟩ => ⟨S1x262144, .i32⟩
  | .hbm, ⟨80, _⟩ => ⟨S262144, .i32⟩
  | .hbm, ⟨81, _⟩ => ⟨S65536x512, .f32⟩
  | .hbm, ⟨82, _⟩ => ⟨S_, .i32⟩
  | .hbm, ⟨83, _⟩ => ⟨S262144, .i32⟩
  | .hbm, ⟨84, _⟩ => ⟨S262144, .i1⟩
  | .hbm, ⟨85, _⟩ => ⟨S_, .i32⟩
  | .hbm, ⟨86, _⟩ => ⟨S262144, .i32⟩
  | .hbm, ⟨87, _⟩ => ⟨S262144, .i32⟩
  | .hbm, ⟨88, _⟩ => ⟨S262144, .i32⟩
  | .hbm, ⟨89, _⟩ => ⟨S262144x1, .i32⟩
  | .hbm, ⟨90, _⟩ => ⟨S262144x512, .f32⟩
  | .hbm, ⟨91, _⟩ => ⟨S262144x1, .f32⟩
  | .hbm, ⟨92, _⟩ => ⟨S262144x512, .f32⟩
  | .hbm, ⟨93, _⟩ => ⟨S262144x512, .f32⟩
  | .hbm, ⟨94, _⟩ => ⟨S_, .f32⟩
  | .hbm, ⟨95, _⟩ => ⟨S65536x512, .f32⟩
  | .hbm, ⟨96, _⟩ => ⟨S262144x1, .i32⟩
  | .hbm, ⟨97, _⟩ => ⟨S65536x512, .f32⟩
  | .hbm, ⟨98, _⟩ => ⟨S512x65536, .f32⟩
  | .hbm, ⟨99, _⟩ => ⟨S512x65536, .f32⟩
  | _, _ => ⟨S32x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_c_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_c_4 : Ref sig .tc := ⟨.hbm, 30, rfl⟩
abbrev main_call0_cst : Ref sig .tc := ⟨.hbm, 31, rfl⟩
abbrev main_call0_v0 : Ref sig .tc := ⟨.hbm, 32, rfl⟩
abbrev main_call0_v1 : Ref sig .tc := ⟨.hbm, 33, rfl⟩
abbrev main_call0_cst_0 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_v6 : Ref sig .tc := ⟨.hbm, 39, rfl⟩
abbrev main_call0_v7 : Ref sig .tc := ⟨.hbm, 40, rfl⟩
abbrev main_call0_cst_1 : Ref sig .tc := ⟨.hbm, 41, rfl⟩
abbrev main_call0_v8 : Ref sig .tc := ⟨.hbm, 42, rfl⟩
abbrev main_call0_cst_2 : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_cst_3 : Ref sig .tc := ⟨.hbm, 47, rfl⟩
abbrev main_call0_v12 : Ref sig .tc := ⟨.hbm, 48, rfl⟩
abbrev main_call0_cst_4 : Ref sig .tc := ⟨.hbm, 49, rfl⟩
abbrev main_call0_call0_v0 : Ref sig .tc := ⟨.hbm, 50, rfl⟩
abbrev main_call0_call0_v1 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_cst_5 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_call1_v0 : Ref sig .tc := ⟨.hbm, 68, rfl⟩
abbrev main_call1_v1 : Ref sig .tc := ⟨.hbm, 69, rfl⟩
abbrev main_call1_cst : Ref sig .tc := ⟨.hbm, 70, rfl⟩
abbrev main_call1_v2 : Ref sig .tc := ⟨.hbm, 71, rfl⟩
abbrev main_call1_v3 : Ref sig .tc := ⟨.hbm, 72, rfl⟩
abbrev main_call1_cst_0 : Ref sig .tc := ⟨.hbm, 73, rfl⟩
abbrev main_call1_v4 : Ref sig .tc := ⟨.hbm, 74, rfl⟩
abbrev main_call1_v5 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_c_6 : Ref sig .tc := ⟨.hbm, 82, rfl⟩
abbrev main_v38 : Ref sig .tc := ⟨.hbm, 83, rfl⟩
abbrev main_v39 : Ref sig .tc := ⟨.hbm, 84, rfl⟩
abbrev main_c_7 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_cst_8 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩

abbrev nD : Nat := 1
abbrev τ : Topo := Topo.v7x

variable {F : FTy → Type} [FloatOps F]

class Facts₀ : Prop where
  bcast_S_S512 : S_.BroadcastsInDim S512 (![] : Fin 0 → Fin S512.rank)
  bcast_S512_S512x1_0 : S512.BroadcastsInDim S512x1 (![0] : Fin 1 → Fin S512x1.rank)
  concatenates_S512x1_S512x1_S512x2_d1 : Shape.Concatenates [S512x1, S512x1] S512x2 1
  reducesTo_S512x1024_S1024_d0 : S512x1024.ReducesTo [0] S1024
  h_S_ : 0 < S_.numel
  bcast_S_S1024 : S_.BroadcastsInDim S1024 (![] : Fin 0 → Fin S1024.rank)
  bcast_S1024_S1x1024_1 : S1024.BroadcastsInDim S1x1024 (![1] : Fin 1 → Fin S1x1024.rank)
  bcast_S_S1x1024 : S_.BroadcastsInDim S1x1024 (![] : Fin 0 → Fin S1x1024.rank)
  bcast_S1x1024_S512x1024_0_1 : S1x1024.BroadcastsInDim S512x1024 (![0, 1] : Fin 2 → Fin S512x1024.rank)
  transposes_S65536x1024_S1024x65536_1_0 : S65536x1024.Transposes [1, 0] S1024x65536
  bcast_S65536_S1x65536_1 : S65536.BroadcastsInDim S1x65536 (![1] : Fin 1 → Fin S1x65536.rank)
  bcast_S1x65536_S512x65536_0_1 : S1x65536.BroadcastsInDim S512x65536 (![0, 1] : Fin 2 → Fin S512x65536.rank)
  bcast_S_S512x65536 : S_.BroadcastsInDim S512x65536 (![] : Fin 0 → Fin S512x65536.rank)
  slices_S2x262144_S1x262144_0_0 : S2x262144.Slices ![0, 0] S1x262144
  shapeCasts_S1x262144_S262144 : S1x262144.ShapeCasts S262144
  slices_S2x262144_S1x262144_1_0 : S2x262144.Slices ![1, 0] S1x262144
  transposes_S512x65536_S65536x512_1_0 : S512x65536.Transposes [1, 0] S65536x512
  bcast_S_S262144 : S_.BroadcastsInDim S262144 (![] : Fin 0 → Fin S262144.rank)
  bcast_S262144_S262144x1_0 : S262144.BroadcastsInDim S262144x1 (![0] : Fin 1 → Fin S262144x1.rank)
  bcast_S262144x1_S262144x512_0_1 : S262144x1.BroadcastsInDim S262144x512 (![0, 1] : Fin 2 → Fin S262144x512.rank)
  bcast_S_S65536x512 : S_.BroadcastsInDim S65536x512 (![] : Fin 0 → Fin S65536x512.rank)
  transposes_S65536x512_S512x65536_1_0 : S65536x512.Transposes [1, 0] S512x65536
  gather_S32x128x1024_S512x2_S512x1024_1_01_n_n_01_1_111024_wf : GatherDims.WF S32x128x1024 S512x2 S512x1024 [1] [0, 1] [] [0, 1] [] 1 ![1, 1, 1024]
  dot_S512x1024_S1024x65536_S512x65536_1_0_0_1_n_n_wf : DotDims.WF S512x1024 S1024x65536 S512x65536 [1] [0] [0] [1] [] []
  gather_S65536x512_S262144x1_S262144x512_1_0_n_n_0_1_1512_wf : GatherDims.WF S65536x512 S262144x1 S262144x512 [1] [0] [] [0] [] 1 ![1, 512]
  scatter_S65536x512_S262144x1_S262144x512_1_0_0_1_wf : ScatterDims.WF S65536x512 S262144x1 S262144x512 [1] [0] [0] 1

variable [Facts₀]

def gather_S32x128x1024_S512x2_S512x1024_1_01_n_n_01_1_111024 : GatherDims S32x128x1024 S512x2 S512x1024 where
  offsetDims := [1]
  collapsedSliceDims := [0, 1]
  operandBatchingDims := []
  startIndicesBatchingDims := []
  startIndexMap := [0, 1]
  indexVectorDim := 1
  sliceSizes := ![1, 1, 1024]
  wf := gather_S32x128x1024_S512x2_S512x1024_1_01_n_n_01_1_111024_wf
def dot_S512x1024_S1024x65536_S512x65536_1_0_0_1_n_n : DotDims S512x1024 S1024x65536 S512x65536 where
  lhsContracting := [1]
  rhsContracting := [0]
  lhsNonContracting := [0]
  rhsNonContracting := [1]
  lhsBatch := []
  rhsBatch := []
  wf := dot_S512x1024_S1024x65536_S512x65536_1_0_0_1_n_n_wf
def gather_S65536x512_S262144x1_S262144x512_1_0_n_n_0_1_1512 : GatherDims S65536x512 S262144x1 S262144x512 where
  offsetDims := [1]
  collapsedSliceDims := [0]
  operandBatchingDims := []
  startIndicesBatchingDims := []
  startIndexMap := [0]
  indexVectorDim := 1
  sliceSizes := ![1, 512]
  wf := gather_S65536x512_S262144x1_S262144x512_1_0_n_n_0_1_1512_wf
def scatter_S65536x512_S262144x1_S262144x512_1_0_0_1 : ScatterDims S65536x512 S262144x1 S262144x512 where
  updateWindowDims := [1]
  insertedWindowDims := [0]
  scatterDimsToOperandDims := [0]
  indexVectorDim := 1
  wf := scatter_S65536x512_S262144x1_S262144x512_1_0_0_1_wf

class Facts : Prop extends Facts₀ where

variable [Facts]
-- ==== Proof.HostChain.lean ====
/-
  The two stretches of host arithmetic that the kernel's program and the reference share, each as ONE function of the
  arrays it reads, for any float instance.

  `normRows`: the rows `enc[bi[n], ti[n], :]` (a negative index wrapped once by the axis length, the gather itself
  left to the host's own semantics), normalised column by column: with `μ_d` the mean over the 512 rows of column `d`
  and `σ²_d` the mean of the squared deviations, entry `(n, d)` is `(g[n, d] − μ_d) / sqrt (σ²_d + ε)`.  The variance
  is jnp's `_var` with zero degrees of freedom removed, its guard `512 − 0 > 0` selecting the quotient.

  `aggregate`: for logits `z` of shape [512, 65536], edge weights `a` and an edge list `e = (row, col)`, the array
  `z + (Σ over edges with row = r of a · zᵀ[col]) ᵀ`: the columns of `z` named by `col` are gathered as rows, scaled by
  the edge weight, scatter-added into the row named by `row`, transposed back and added to `z`.

  Both are kept closed: nothing below looks inside a gather, a reduction or the scatter.
-/
import proofs.«135931_j81037442941606_1_alg».proof.Proof.Gen.KernelIdeal

noncomputable section

namespace Cert.HostChain

open Idealize.ShloMosaic Cert.KernelIdeal Cert.KernelIdeal.Gen

variable {F : FTy → Type} [FloatOps F]

/-- The gathered rows of the encoder output, batch-normalised over the 512 rows (no affine part). -/
def normRows (enc : FVec F S32x128x1024 .f32) (bi ti : IVec S512 32) : FVec F S512x1024 .f32 :=
  -- a negative index counts from the end of its axis
  have b' : IVec S512 32 := select (cmpi .slt bi (broadcastInDim S512 ![] bcast_S_S512 (constantI S_ 32 0#32)))
    (addi bi (broadcastInDim S512 ![] bcast_S_S512 (constantI S_ 32 32#32))) bi
  have t' : IVec S512 32 := select (cmpi .slt ti (broadcastInDim S512 ![] bcast_S_S512 (constantI S_ 32 0#32)))
    (addi ti (broadcastInDim S512 ![] bcast_S_S512 (constantI S_ 32 128#32))) ti
  -- the pairs (b', t') as a [512, 2] table, and the rows they name
  have pairs : IVec S512x2 32 := concatenate S512x2 1
    [⟨S512x1, broadcastInDim S512x1 ![0] bcast_S512_S512x1_0 b'⟩, ⟨S512x1, broadcastInDim S512x1 ![0] bcast_S512_S512x1_0 t'⟩]
    concatenates_S512x1_S512x1_S512x2_d1
  have g : FVec F S512x1024 .f32 := Host.gather gather_S32x128x1024_S512x2_S512x1024_1_01_n_n_01_1_111024 enc pairs
  -- the column means
  have μ : FVec F S1024 .f32 := Host.divf (Host.reduceAdd g (constant S_ .f32 0x00000000#32) reducesTo_S512x1024_S1024_d0 h_S_)
    (broadcastInDim S1024 ![] bcast_S_S1024 (constant S_ .f32 0x44000000#32))
  -- the column variances: the mean again, kept as one row, the squared deviations from it, their sum over the rows
  have μrow : FVec F S1x1024 .f32 := Host.divf
    (broadcastInDim S1x1024 ![1] bcast_S1024_S1x1024_1
      (Host.reduceAdd g (constant S_ .f32 0x00000000#32) reducesTo_S512x1024_S1024_d0 h_S_))
    (broadcastInDim S1x1024 ![] bcast_S_S1x1024 (constant S_ .f32 0x44000000#32))
  have dev : FVec F S512x1024 .f32 := subf g (broadcastInDim S512x1024 ![0, 1] bcast_S1x1024_S512x1024_0_1 μrow)
  have cnt : FVec F S_ .f32 := subf (constant S_ .f32 0x44000000#32) (sitofp .f32 (constantI S_ 32 0#32))
  have quot : FVec F S1024 .f32 := Host.divf
    (Host.reduceAdd (mulf dev dev) (constant S_ .f32 0x00000000#32) reducesTo_S512x1024_S1024_d0 h_S_)
    (broadcastInDim S1024 ![] bcast_S_S1024 cnt)
  have σ2 : FVec F S1024 .f32 := select (broadcastInDim S1024 ![] bcast_S_S1024 (cmpf .ogt cnt (constant S_ .f32 0x00000000#32)))
    quot (broadcastInDim S1024 ![] bcast_S_S1024 (id (constant S_ .f32 0x7FC00000#32)))
  -- centre, and divide by the root of the variance plus ε
  have centred : FVec F S512x1024 .f32 := subf g
    (broadcastInDim S512x1024 ![0, 1] bcast_S1x1024_S512x1024_0_1 (broadcastInDim S1x1024 ![1] bcast_S1024_S1x1024_1 μ))
  have sd : FVec F S1024 .f32 := Host.sqrt (addf σ2 (broadcastInDim S1024 ![] bcast_S_S1024 (constant S_ .f32 0x3727C5AC#32)))
  Host.divf centred
    (broadcastInDim S512x1024 ![0, 1] bcast_S1x1024_S512x1024_0_1 (broadcastInDim S1x1024 ![1] bcast_S1024_S1x1024_1 sd))

/-- The logits plus their weighted sums along the edges of the sparse adjacency. -/
def aggregate (z : FVec F S512x65536 .f32) (a : FVec F S262144 .f32) (e : IVec S2x262144 32) : FVec F S512x65536 .f32 :=
  have row : IVec S262144 32 := shapeCast S262144 (extractStridedSlice S1x262144 ![0, 0] e slices_S2x262144_S1x262144_0_0)
    shapeCasts_S1x262144_S262144
  have col : IVec S262144 32 := shapeCast S262144 (extractStridedSlice S1x262144 ![1, 0] e slices_S2x262144_S1x262144_1_0)
    shapeCasts_S1x262144_S262144
  have zT : FVec F S65536x512 .f32 := transpose S65536x512 [1, 0] z transposes_S512x65536_S65536x512_1_0
  have col' : IVec S262144 32 := select (cmpi .slt col (broadcastInDim S262144 ![] bcast_S_S262144 (constantI S_ 32 0#32)))
    (addi col (broadcastInDim S262144 ![] bcast_S_S262144 (constantI S_ 32 65536#32))) col
  have picked : FVec F S262144x512 .f32 := Host.gather gather_S65536x512_S262144x1_S262144x512_1_0_n_n_0_1_1512 zT
    (broadcastInDim S262144x1 ![0] bcast_S262144_S262144x1_0 col')
  have scaled : FVec F S262144x512 .f32 := mulf picked
    (broadcastInDim S262144x512 ![0, 1] bcast_S262144x1_S262144x512_0_1 (broadcastInDim S262144x1 ![0] bcast_S262144_S262144x1_0 a))
  have summed : FVec F S65536x512 .f32 := Host.scatterAdd scatter_S65536x512_S262144x1_S262144x512_1_0_0_1
    (broadcastInDim S65536x512 ![] bcast_S_S65536x512 (constant S_ .f32 0x00000000#32))
    (broadcastInDim S262144x1 ![0] bcast_S262144_S262144x1_0 row) scaled
  addf (transpose S512x65536 [1, 0] summed transposes_S65536x512_S512x65536_1_0) z

end Cert.HostChain

end
-- ==== Proof.RefOps.lean ====
import proofs.«135931_j81037442941606_1_alg».proof.Proof.Gen.ReferenceIdeal
import Idealize.ShloMosaic.Lib.StableHlo.Run

noncomputable section

namespace Cert.RefOps

open Cert.ReferenceIdeal Cert.ReferenceIdeal.Gen Idealize.ShloMosaic Idealize.ShloMosaic.TcCoe Idealize.SL.Sem Idealize.ShloMosaic.StableHlo

variable {F : FTy → Type} [FloatOps F]

/-- The reference's 93 host operations in program order, each outlined function written out where it is called. -/
abbrev ops : List (HloOp τ sig (Elt F)) :=
  [ nullary main_c (constantI S_ 32 0#32),
    unary main_c main_v0 (broadcastInDim S512 ![] bcast_S_S512 : (⟨S_, .i32⟩ : BufTy).Contents (Elt F) → (⟨S512, .i32⟩ : BufTy).Contents (Elt F)),
    binary main_arg4 main_v0 main_v1 (cmpi .slt : (⟨S512, .i32⟩ : BufTy).Contents (Elt F) → (⟨S512, .i32⟩ : BufTy).Contents (Elt F) → (⟨S512, .i1⟩ : BufTy).Contents (Elt F)),
    nullary main_c_0 (constantI S_ 32 32#32),
    unary main_c_0 main_v2 (broadcastInDim S512 ![] bcast_S_S512 : (⟨S_, .i32⟩ : BufTy).Contents (Elt F) → (⟨S512, .i32⟩ : BufTy).Contents (Elt F)),
    binary main_arg4 main_v2 main_v3 (addi : (⟨S512, .i32⟩ : BufTy).Contents (Elt F) → (⟨S512, .i32⟩ : BufTy).Contents (Elt F) → (⟨S512, .i32⟩ : BufTy).Contents (Elt F)),
    ternary main_v1 main_v3 main_arg4 main_v4 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    nullary main_c_1 (constantI S_ 32 0#32),
    unary main_c_1 main_v5 (broadcastInDim S512 ![] bcast_S_S512 : (⟨S_, .i32⟩ : BufTy).Contents (Elt F) → (⟨S512, .i32⟩ : BufTy).Contents (Elt F)),
    binary main_arg5 main_v5 main_v6 (cmpi .slt : (⟨S512, .i32⟩ : BufTy).Contents (Elt F) → (⟨S512, .i32⟩ : BufTy).Contents (Elt F) → (⟨S512, .i1⟩ : BufTy).Contents (Elt F)),
    nullary main_c_2 (constantI S_ 32 128#32),
    unary main_c_2 main_v7 (broadcastInDim S512 ![] bcast_S_S512 : (⟨S_, .i32⟩ : BufTy).Contents (Elt F) → (⟨S512, .i32⟩ : BufTy).Contents (Elt F)),
    binary main_arg5 main_v7 main_v8 (addi : (⟨S512, .i32⟩ : BufTy).Contents (Elt F) → (⟨S512, .i32⟩ : BufTy).Contents (Elt F) → (⟨S512, .i32⟩ : BufTy).Contents (Elt F)),
    ternary main_v6 main_v8 main_arg5 main_v9 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    unary main_v4 main_v10 (broadcastInDim S512x1 ![0] bcast_S512_S512x1_0 : (⟨S512, .i32⟩ : BufTy).Contents (Elt F) → (⟨S512x1, .i32⟩ : BufTy).Contents (Elt F)),
    unary main_v9 main_v11 (broadcastInDim S512x1 ![0] bcast_S512_S512x1_0 : (⟨S512, .i32⟩ : BufTy).Contents (Elt F) → (⟨S512x1, .i32⟩ : BufTy).Contents (Elt F)),
    binary main_v10 main_v11 main_v12 ((fun a b => concatenate S512x2 1 [⟨S512x1, a⟩, ⟨S512x1, b⟩] concatenates_S512x1_S512x1_S512x2_d1) : (⟨S512x1, .i32⟩ : BufTy).Contents (Elt F) → (⟨S512x1, .i32⟩ : BufTy).Contents (Elt F) → (⟨S512x2, .i32⟩ : BufTy).Contents (Elt F)),
    binary main_arg0 main_v12 main_v13 ((fun x i => Host.gather gather_S32x128x1024_S512x2_S512x1024_1_01_n_n_01_1_111024 x i) : (⟨S32x128x1024, .f32⟩ : BufTy).Contents (Elt F) → (⟨S512x2, .i32⟩ : BufTy).Contents (Elt F) → (⟨S512x1024, .f32⟩ : BufTy).Contents (Elt F)),
    nullary main_cst (constant S_ .f32 0x00000000#32),
    binary main_v13 main_cst main_v14 ((fun x v => Host.reduceAdd x v reducesTo_S512x1024_S1024_d0 h_S_) : (⟨S512x1024, .f32⟩ : BufTy).Contents (Elt F) → (⟨S_, .f32⟩ : BufTy).Contents (Elt F) → (⟨S1024, .f32⟩ : BufTy).Contents (Elt F)),
    nullary main_cst_3 (constant S_ .f32 0x44000000#32),
    unary main_cst_3 main_v15 (broadcastInDim S1024 ![] bcast_S_S1024 : (⟨S_, .f32⟩ : BufTy).Contents (Elt F) → (⟨S1024, .f32⟩ : BufTy).Contents (Elt F)),
    binary main_v14 main_v15 main_v16 (Host.divf : (⟨S1024, .f32⟩ : BufTy).Contents (Elt F) → (⟨S1024, .f32⟩ : BufTy).Contents (Elt F) → (⟨S1024, .f32⟩ : BufTy).Contents (Elt F)),
    nullary main_c_4 (constantI S_ 32 0#32),
    TRef.nullary main_call0.cst (constant S_ .f32 0x00000000#32),
    TRef.binary (.of main_v13) main_call0.cst main_call0.v0 (fun x v => Host.reduceAdd x v reducesTo_S512x1024_S1024_d0 h_S_),
    TRef.unary main_call0.v0 main_call0.v1 (broadcastInDim S1x1024 ![1] bcast_S1024_S1x1024_1),
    TRef.nullary main_call0.cst_0 (constant S_ .f32 0x44000000#32),
    TRef.unary main_call0.cst_0 main_call0.v2 (broadcastInDim S1x1024 ![] bcast_S_S1x1024),
    TRef.binary main_call0.v1 main_call0.v2 main_call0.v3 Host.divf,
    TRef.unary main_call0.v3 main_call0.v4 (broadcastInDim S512x1024 ![0, 1] bcast_S1x1024_S512x1024_0_1),
    TRef.binary (.of main_v13) main_call0.v4 main_call0.v5 subf,
    TRef.binary main_call0.v5 main_call0.v5 main_call0.v6 mulf,
    TRef.unary (.of main_c_4) main_call0.v7 (sitofp .f32),
    TRef.nullary main_call0.cst_1 (constant S_ .f32 0x44000000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S512x1024_S1024_d0 h_S_),
    TRef.unary main_call0.v8 main_call0.v10 (broadcastInDim S1024 ![] bcast_S_S1024),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S1024 ![] bcast_S_S1024),
    TRef.ternary main_call0.v12 main_call0.v11 main_call0.call0.v1 main_call0.call0.v2 (fun p a b => select (broadcastInDim S1024 ![] bcast_S_S1024 p) a b),
    unary main_v16 main_v18 (broadcastInDim S1x1024 ![1] bcast_S1024_S1x1024_1 : (⟨S1024, .f32⟩ : BufTy).Contents (Elt F) → (⟨S1x1024, .f32⟩ : BufTy).Contents (Elt F)),
    unary main_v18 main_v19 (broadcastInDim S512x1024 ![0, 1] bcast_S1x1024_S512x1024_0_1 : (⟨S1x1024, .f32⟩ : BufTy).Contents (Elt F) → (⟨S512x1024, .f32⟩ : BufTy).Contents (Elt F)),
    binary main_v13 main_v19 main_v20 (subf : (⟨S512x1024, .f32⟩ : BufTy).Contents (Elt F) → (⟨S512x1024, .f32⟩ : BufTy).Contents (Elt F) → (⟨S512x1024, .f32⟩ : BufTy).Contents (Elt F)),
    nullary main_cst_5 (constant S_ .f32 0x3727C5AC#32),
    unary main_cst_5 main_v21 (broadcastInDim S1024 ![] bcast_S_S1024 : (⟨S_, .f32⟩ : BufTy).Contents (Elt F) → (⟨S1024, .f32⟩ : BufTy).Contents (Elt F)),
    binary main_v17 main_v21 main_v22 (addf : (⟨S1024, .f32⟩ : BufTy).Contents (Elt F) → (⟨S1024, .f32⟩ : BufTy).Contents (Elt F) → (⟨S1024, .f32⟩ : BufTy).Contents (Elt F)),
    unary main_v22 main_v23 (Host.sqrt : (⟨S1024, .f32⟩ : BufTy).Contents (Elt F) → (⟨S1024, .f32⟩ : BufTy).Contents (Elt F)),
    unary main_v23 main_v24 (broadcastInDim S1x1024 ![1] bcast_S1024_S1x1024_1 : (⟨S1024, .f32⟩ : BufTy).Contents (Elt F) → (⟨S1x1024, .f32⟩ : BufTy).Contents (Elt F)),
    unary main_v24 main_v25 (broadcastInDim S512x1024 ![0, 1] bcast_S1x1024_S512x1024_0_1 : (⟨S1x1024, .f32⟩ : BufTy).Contents (Elt F) → (⟨S512x1024, .f32⟩ : BufTy).Contents (Elt F)),
    binary main_v20 main_v25 main_v26 (Host.divf : (⟨S512x1024, .f32⟩ : BufTy).Contents (Elt F) → (⟨S512x1024, .f32⟩ : BufTy).Contents (Elt F) → (⟨S512x1024, .f32⟩ : BufTy).Contents (Elt F)),
    unary main_arg1 main_v27 ((transpose S1024x65536 [1, 0] · transposes_S65536x1024_S1024x65536_1_0) : (⟨S65536x1024, .f32⟩ : BufTy).Contents (Elt F) → (⟨S1024x65536, .f32⟩ : BufTy).Contents (Elt F)),
    binary main_v26 main_v27 main_v28 ((fun l r => Host.dotGeneral dot_S512x1024_S1024x65536_S512x65536_1_0_0_1_n_n none l r) : (⟨S512x1024, .f32⟩ : BufTy).Contents (Elt F) → (⟨S1024x65536, .f32⟩ : BufTy).Contents (Elt F) → (⟨S512x65536, .f32⟩ : BufTy).Contents (Elt F)),
    unary main_arg2 main_v29 (broadcastInDim S1x65536 ![1] bcast_S65536_S1x65536_1 : (⟨S65536, .f32⟩ : BufTy).Contents (Elt F) → (⟨S1x65536, .f32⟩ : BufTy).Contents (Elt F)),
    unary main_v29 main_v30 (broadcastInDim S512x65536 ![0, 1] bcast_S1x65536_S512x65536_0_1 : (⟨S1x65536, .f32⟩ : BufTy).Contents (Elt F) → (⟨S512x65536, .f32⟩ : BufTy).Contents (Elt F)),
    binary main_v28 main_v30 main_v31 (addf : (⟨S512x65536, .f32⟩ : BufTy).Contents (Elt F) → (⟨S512x65536, .f32⟩ : BufTy).Contents (Elt F) → (⟨S512x65536, .f32⟩ : BufTy).Contents (Elt F)),
    TRef.unary (.of main_v31) main_call1.v0 Host.negf,
    TRef.unary main_call1.v0 main_call1.v1 Host.exp,
    TRef.nullary main_call1.cst (constant S_ .f32 0x3F800000#32),
    TRef.unary main_call1.cst main_call1.v2 (broadcastInDim S512x65536 ![] bcast_S_S512x65536),
    TRef.binary main_call1.v2 main_call1.v1 main_call1.v3 addf,
    TRef.nullary main_call1.cst_0 (constant S_ .f32 0x3F800000#32),
    TRef.unary main_call1.cst_0 main_call1.v4 (broadcastInDim S512x65536 ![] bcast_S_S512x65536),
    TRef.binary main_call1.v4 main_call1.v3 main_call1.v5 Host.divf,
    TRef.binary (.of main_v31) main_call1.v5 main_call1.v6 mulf,
    unary main_arg6 main_v33 ((extractStridedSlice S1x262144 ![0, 0] · slices_S2x262144_S1x262144_0_0) : (⟨S2x262144, .i32⟩ : BufTy).Contents (Elt F) → (⟨S1x262144, .i32⟩ : BufTy).Contents (Elt F)),
    reshape main_v33 main_v34 rfl shapeCasts_S1x262144_S262144,
    unary main_arg6 main_v35 ((extractStridedSlice S1x262144 ![1, 0] · slices_S2x262144_S1x262144_1_0) : (⟨S2x262144, .i32⟩ : BufTy).Contents (Elt F) → (⟨S1x262144, .i32⟩ : BufTy).Contents (Elt F)),
    reshape main_v35 main_v36 rfl shapeCasts_S1x262144_S262144,
    unary main_v32 main_v37 ((transpose S65536x512 [1, 0] · transposes_S512x65536_S65536x512_1_0) : (⟨S512x65536, .f32⟩ : BufTy).Contents (Elt F) → (⟨S65536x512, .f32⟩ : BufTy).Contents (Elt F)),
    nullary main_c_6 (constantI S_ 32 0#32),
    unary main_c_6 main_v38 (broadcastInDim S262144 ![] bcast_S_S262144 : (⟨S_, .i32⟩ : BufTy).Contents (Elt F) → (⟨S262144, .i32⟩ : BufTy).Contents (Elt F)),
    binary main_v36 main_v38 main_v39 (cmpi .slt : (⟨S262144, .i32⟩ : BufTy).Contents (Elt F) → (⟨S262144, .i32⟩ : BufTy).Contents (Elt F) → (⟨S262144, .i1⟩ : BufTy).Contents (Elt F)),
    nullary main_c_7 (constantI S_ 32 65536#32),
    unary main_c_7 main_v40 (broadcastInDim S262144 ![] bcast_S_S262144 : (⟨S_, .i32⟩ : BufTy).Contents (Elt F) → (⟨S262144, .i32⟩ : BufTy).Contents (Elt F)),
    binary main_v36 main_v40 main_v41 (addi : (⟨S262144, .i32⟩ : BufTy).Contents (Elt F) → (⟨S262144, .i32⟩ : BufTy).Contents (Elt F) → (⟨S262144, .i32⟩ : BufTy).Contents (Elt F)),
    ternary main_v39 main_v41 main_v36 main_v42 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v42 main_v43 (broadcastInDim S262144x1 ![0] bcast_S262144_S262144x1_0 : (⟨S262144, .i32⟩ : BufTy).Contents (Elt F) → (⟨S262144x1, .i32⟩ : BufTy).Contents (Elt F)),
    binary main_v37 main_v43 main_v44 ((fun x i => Host.gather gather_S65536x512_S262144x1_S262144x512_1_0_n_n_0_1_1512 x i) : (⟨S65536x512, .f32⟩ : BufTy).Contents (Elt F) → (⟨S262144x1, .i32⟩ : BufTy).Contents (Elt F) → (⟨S262144x512, .f32⟩ : BufTy).Contents (Elt F)),
    unary main_arg3 main_v45 (broadcastInDim S262144x1 ![0] bcast_S262144_S262144x1_0 : (⟨S262144, .f32⟩ : BufTy).Contents (Elt F) → (⟨S262144x1, .f32⟩ : BufTy).Contents (Elt F)),
    unary main_v45 main_v46 (broadcastInDim S262144x512 ![0, 1] bcast_S262144x1_S262144x512_0_1 : (⟨S262144x1, .f32⟩ : BufTy).Contents (Elt F) → (⟨S262144x512, .f32⟩ : BufTy).Contents (Elt F)),
    binary main_v44 main_v46 main_v47 (mulf : (⟨S262144x512, .f32⟩ : BufTy).Contents (Elt F) → (⟨S262144x512, .f32⟩ : BufTy).Contents (Elt F) → (⟨S262144x512, .f32⟩ : BufTy).Contents (Elt F)),
    nullary main_cst_8 (constant S_ .f32 0x00000000#32),
    unary main_cst_8 main_v48 (broadcastInDim S65536x512 ![] bcast_S_S65536x512 : (⟨S_, .f32⟩ : BufTy).Contents (Elt F) → (⟨S65536x512, .f32⟩ : BufTy).Contents (Elt F)),
    unary main_v34 main_v49 (broadcastInDim S262144x1 ![0] bcast_S262144_S262144x1_0 : (⟨S262144, .i32⟩ : BufTy).Contents (Elt F) → (⟨S262144x1, .i32⟩ : BufTy).Contents (Elt F)),
    ternary main_v48 main_v49 main_v47 main_v50 ((fun x i u => Host.scatterAdd scatter_S65536x512_S262144x1_S262144x512_1_0_0_1 x i u) : (⟨S65536x512, .f32⟩ : BufTy).Contents (Elt F) → (⟨S262144x1, .i32⟩ : BufTy).Contents (Elt F) → (⟨S262144x512, .f32⟩ : BufTy).Contents (Elt F) → (⟨S65536x512, .f32⟩ : BufTy).Contents (Elt F)),
    unary main_v50 main_v51 ((transpose S512x65536 [1, 0] · transposes_S65536x512_S512x65536_1_0) : (⟨S65536x512, .f32⟩ : BufTy).Contents (Elt F) → (⟨S512x65536, .f32⟩ : BufTy).Contents (Elt F)),
    binary main_v51 main_v32 main_v52 (addf : (⟨S512x65536, .f32⟩ : BufTy).Contents (Elt F) → (⟨S512x65536, .f32⟩ : BufTy).Contents (Elt F) → (⟨S512x65536, .f32⟩ : BufTy).Contents (Elt F)) ]

/-- Each operation touches TensorCore buffers only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., nullary_bufs_sub .., unary_bufs_sub .., binary_bufs_sub .., nullary_bufs_sub .., unary_bufs_sub ..,
    binary_bufs_sub .., ternary_bufs_sub .., unary_bufs_sub .., unary_bufs_sub .., binary_bufs_sub .., binary_bufs_sub ..,
    nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., binary_bufs_sub .., unary_bufs_sub .., unary_bufs_sub ..,
    binary_bufs_sub .., unary_bufs_sub .., unary_bufs_sub .., nullary_bufs_sub .., unary_bufs_sub .., binary_bufs_sub ..,
    nullary_bufs_sub .., unary_bufs_sub .., binary_bufs_sub .., binary_bufs_sub .., unary_bufs_sub .., reshape_bufs_sub ..,
    unary_bufs_sub .., reshape_bufs_sub .., unary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., unary_bufs_sub .., binary_bufs_sub .., nullary_bufs_sub .., unary_bufs_sub .., unary_bufs_sub ..,
    ternary_bufs_sub .., unary_bufs_sub .., binary_bufs_sub ..⟩

end Cert.RefOps

end
-- ==== Proof.RefRun.lean ====
/-
  The reference program read as a straight line of host operations, and what its result buffer holds at the end.

  `@main` calls three outlined functions (the variance with its guard, the guard's select, and silu); written out at
  their call sites over each call's own buffers the program is a list `ops` of 93 operations (laid out in its own module).  Every weakly fair
  execution runs them in order, so each buffer ends at the fold of the list over the launch contents.  Read at the
  result buffer the fold is, in order: the normalised gathered rows (`HostChain.normRows`), the dense layer with its
  bias and activation (`linSwish`: `z · 1/(1 + exp(−z))` for `z = h · wᵀ + b`), and the sparse aggregation
  (`HostChain.aggregate`).  The seven argument buffers are written by no operation.
-/
import proofs.«135931_j81037442941606_1_alg».proof.Proof.Gen.ReferenceIdeal
import proofs.«135931_j81037442941606_1_alg».proof.Proof.HostChain
import proofs.«135931_j81037442941606_1_alg».proof.Proof.RefOps
import Idealize.ShloMosaic.Lib.StableHlo.Run

noncomputable section

namespace Cert.RefRun

open Cert.ReferenceIdeal Cert.ReferenceIdeal.Gen Cert.RefOps Idealize.ShloMosaic Idealize.ShloMosaic.TcCoe Idealize.SL.Sem Idealize.ShloMosaic.StableHlo

variable {F : FTy → Type} [FloatOps F]

/-- The dense layer of the reference on whole arrays: `z = h · wᵀ + b` (the bias laid along every row), then
    `z · (1 / (1 + exp (−z)))`. -/
def linSwish (h : FVec F S512x1024 .f32) (w : FVec F S65536x1024 .f32) (b : FVec F S65536 .f32) : FVec F S512x65536 .f32 :=
  have z : FVec F S512x65536 .f32 := addf
    (Host.dotGeneral dot_S512x1024_S1024x65536_S512x65536_1_0_0_1_n_n none h
      (transpose S1024x65536 [1, 0] w transposes_S65536x1024_S1024x65536_1_0))
    (broadcastInDim S512x65536 ![0, 1] bcast_S1x65536_S512x65536_0_1 (broadcastInDim S1x65536 ![1] bcast_S65536_S1x65536_1 b))
  mulf z (Host.divf (broadcastInDim S512x65536 ![] bcast_S_S512x65536 (constant S_ .f32 0x3F800000#32))
    (addf (broadcastInDim S512x65536 ![] bcast_S_S512x65536 (constant S_ .f32 0x3F800000#32)) (Host.exp (Host.negf z))))

set_option maxRecDepth 4096 in
set_option maxHeartbeats 4000000 in
/-- `@main` is that straight line: the two halves of `@main` and the three function bodies unfolded, sequencing reassociated. -/
theorem main_eq (c : Dev nD) : main (F := F) c = seq ops := by
  simp only [main, main_part0, main_part1, fn_var.body, fn_where.body, fn_silu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every weakly fair execution of the reference terminates with each buffer at the fold of `ops` over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

attribute [local irreducible] Host.gather Host.reduceAdd Host.scatterAdd in
set_option maxRecDepth 8192 in
set_option maxHeartbeats 1600000 in
/-- The fold at the result buffer: rows gathered and normalised, the dense layer, the aggregation. -/
theorem out_eq (V : Valuation τ sig (Elt F)) :
    after ops V (main_v52 : DevRef τ sig)
      = HostChain.aggregate
          (linSwish (HostChain.normRows (V (main_arg0 : DevRef τ sig)) (V (main_arg4 : DevRef τ sig)) (V (main_arg5 : DevRef τ sig)))
            (V (main_arg1 : DevRef τ sig)) (V (main_arg2 : DevRef τ sig)))
          (V (main_arg3 : DevRef τ sig)) (V (main_arg6 : DevRef τ sig)) := by
  after_results_simp
  rfl

set_option maxRecDepth 8192 in
set_option maxHeartbeats 1600000 in
/-- No operation writes an argument buffer. -/
theorem args_eq (V : Valuation τ sig (Elt F)) :
    after ops V (main_arg0 : DevRef τ sig) = V (main_arg0 : DevRef τ sig)
    ∧ after ops V (main_arg1 : DevRef τ sig) = V (main_arg1 : DevRef τ sig)
    ∧ after ops V (main_arg2 : DevRef τ sig) = V (main_arg2 : DevRef τ sig)
    ∧ after ops V (main_arg3 : DevRef τ sig) = V (main_arg3 : DevRef τ sig)
    ∧ after ops V (main_arg4 : DevRef τ sig) = V (main_arg4 : DevRef τ sig)
    ∧ after ops V (main_arg5 : DevRef τ sig) = V (main_arg5 : DevRef τ sig)
    ∧ after ops V (main_arg6 : DevRef τ sig) = V (main_arg6 : DevRef τ sig) := by
  refine ⟨?_, ?_, ?_, ?_, ?_, ?_, ?_⟩ <;> after_results_simp

/-- The reference's run: the result buffer at the three stages composed, the arguments as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v52)
        = HostChain.aggregate
            (linSwish (HostChain.normRows (m ((c.tc : Thread nD τ).loc main_arg0)) (m ((c.tc : Thread nD τ).loc main_arg4))
                (m ((c.tc : Thread nD τ).loc main_arg5)))
              (m ((c.tc : Thread nD τ).loc main_arg1)) (m ((c.tc : Thread nD τ).loc main_arg2)))
            (m ((c.tc : Thread nD τ).loc main_arg3)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    have A := args_eq (F := F) (launchContents m c)
    ⟨(h c main_v52).trans (out_eq (launchContents m c)),
      (h c main_arg0).trans A.1, (h c main_arg1).trans A.2.1, (h c main_arg2).trans A.2.2.1, (h c main_arg3).trans A.2.2.2.1,
      (h c main_arg4).trans A.2.2.2.2.1, (h c main_arg5).trans A.2.2.2.2.2.1, (h c main_arg6).trans A.2.2.2.2.2.2⟩)
    (run_fold m ρ)

end Cert.RefRun

end
-- ==== Proof.DenseSpec.lean ====
/-
  What one entry of the dense layer's output is, as a function of whole arrays read index by index over the extended
  reals: for a row `p` of the normalised activations `h` ([512, 1024]), a class `c` with weight row `w[c, :]`
  ([65536, 1024]) and bias `b[c]`, the logit is

      z = (Σ over k < 1024 of h[p, k] · w[c, k]) + b[c]

  and the entry is `z · σ(z)` with `σ(z) = 1 / (1 + exp (−z))` read with the extended reals' conventions
  (`σ(−∞) = 0`, `σ(+∞) = 1`).  The sum is a finite sum in a commutative monoid, so neither its order nor its tiling
  matters; nothing here needs the summands to be finite.
-/
import Idealize.ShloMosaic.PureOps.Ideal
import Idealize.ShloMosaic.Lib.ValueIdx

noncomputable section

open scoped BigOperators

namespace Cert.DenseSpec

open Idealize.ShloMosaic Idealize.ShloMosaic.ValueIdx

/-- The activation on one extended real: `z · σ(z)`. -/
def swishAt (z : EReal) : EReal := z * Ideal.logistic z

/-- The logit of row `p` against class `c`: the row of `h` against the row of `w`, plus the class's bias. -/
def logitAt (h : (⟨2, ![512, 1024]⟩ : Shape).Idx → EReal) (w : (⟨2, ![65536, 1024]⟩ : Shape).Idx → EReal)
    (b : (⟨1, ![65536]⟩ : Shape).Idx → EReal) (p : Fin 512) (c : Fin 65536) : EReal :=
  (∑ k : Fin 1024, h (ix2 p k) * w (ix2 c k)) + b (ix1 c)

/-- The dense layer's whole output, entry by entry. -/
def dense (h : (⟨2, ![512, 1024]⟩ : Shape).Idx → EReal) (w : (⟨2, ![65536, 1024]⟩ : Shape).Idx → EReal)
    (b : (⟨1, ![65536]⟩ : Shape).Idx → EReal) : (⟨2, ![512, 65536]⟩ : Shape).Idx → EReal :=
  fun i => swishAt (logitAt h w b (i 0) (i 1))

theorem dense_apply (h : (⟨2, ![512, 1024]⟩ : Shape).Idx → EReal) (w : (⟨2, ![65536, 1024]⟩ : Shape).Idx → EReal)
    (b : (⟨1, ![65536]⟩ : Shape).Idx → EReal) (p : Fin 512) (c : Fin 65536) :
    dense h w b (ix2 p c) = swishAt (logitAt h w b p c) := rfl

end Cert.DenseSpec

end
-- ==== Proof.RefDense.lean ====
/-
  The reference's dense layer, entry by entry, over the extended reals: `linSwish h w b = dense h w b`.

  At `(p, c)` the host product of `h` ([512, 1024]) with the transposed weights ([1024, 65536]) contracts axis 1 of the
  first against axis 0 of the second, so it pairs `h[p, k]` with `wᵀ[k, c] = w[c, k]`: the same finite sum as the
  kernel's, with no accumulator.  The bias, made a row and laid along every row, reads `b[c]`.  jax spells the activation
  `z · (1 / (1 + exp (−z)))` with the constant one written as a float word; that word denotes the real 1, and the quotient
  with these operations is by definition `σ(z)`.
-/
import proofs.«135931_j81037442941606_1_alg».proof.Proof.RefRun
import proofs.«135931_j81037442941606_1_alg».proof.Proof.DenseSpec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RefDense

open Idealize.ShloMosaic Idealize.ShloMosaic.ValueIdx Cert.ReferenceIdeal Cert.ReferenceIdeal.Gen Cert.DenseSpec

/-! ## The host product's operand indices -/

theorem lhs_axis0 (j : S512x65536.Idx) (k : dot_S512x1024_S1024x65536_S512x65536_1_0_0_1_n_n.contr.Idx) :
    (dot_S512x1024_S1024x65536_S512x65536_1_0_0_1_n_n.lhsIdx j k 0).val = (j 0).val := by
  simp [DotDims.lhsIdx, dot_S512x1024_S1024x65536_S512x65536_1_0_0_1_n_n]
  rfl

theorem lhs_axis1 (j : S512x65536.Idx) (k : dot_S512x1024_S1024x65536_S512x65536_1_0_0_1_n_n.contr.Idx) :
    (dot_S512x1024_S1024x65536_S512x65536_1_0_0_1_n_n.lhsIdx j k 1).val = (k ⟨0, by decide⟩).val :=
  dot_S512x1024_S1024x65536_S512x65536_1_0_0_1_n_n.lhsIdx_val_of_single (cl := 1) rfl j k

theorem rhs_axis0 (j : S512x65536.Idx) (k : dot_S512x1024_S1024x65536_S512x65536_1_0_0_1_n_n.contr.Idx) :
    (dot_S512x1024_S1024x65536_S512x65536_1_0_0_1_n_n.rhsIdx j k 0).val = (k ⟨0, by decide⟩).val :=
  dot_S512x1024_S1024x65536_S512x65536_1_0_0_1_n_n.rhsIdx_val_of_single (cr := 0) rfl j k

theorem rhs_axis1 (j : S512x65536.Idx) (k : dot_S512x1024_S1024x65536_S512x65536_1_0_0_1_n_n.contr.Idx) :
    (dot_S512x1024_S1024x65536_S512x65536_1_0_0_1_n_n.rhsIdx j k 1).val = (j 1).val := by
  simp [DotDims.rhsIdx, dot_S512x1024_S1024x65536_S512x65536_1_0_0_1_n_n]
  rfl

/-- The host product at `(p, c)`: row `p` of the left operand against column `c` of the right. -/
theorem hostProduct_apply (a : FVec Ideal S512x1024 .f32) (wT : FVec Ideal S1024x65536 .f32) (p : Fin 512) (c : Fin 65536) :
    Host.dotGeneral dot_S512x1024_S1024x65536_S512x65536_1_0_0_1_n_n none a wT (ix2 p c)
      = ∑ k : Fin 1024, a (ix2 p k) * wT (ix2 k c) := by
  show FloatOps.dotGeneral _ none _ a wT (ix2 p c) = _
  rw [Ideal.dotGeneral_apply,
    ← Equiv.sum_comp (contrEquiv1 dot_S512x1024_S1024x65536_S512x65536_1_0_0_1_n_n 1024 rfl rfl).symm]
  refine Finset.sum_congr rfl fun k _ => ?_
  have hk := contrEquiv1_symm_val dot_S512x1024_S1024x65536_S512x65536_1_0_0_1_n_n 1024 rfl rfl k
  have hl : dot_S512x1024_S1024x65536_S512x65536_1_0_0_1_n_n.lhsIdx (ix2 p c)
      ((contrEquiv1 dot_S512x1024_S1024x65536_S512x65536_1_0_0_1_n_n 1024 rfl rfl).symm k) = ix2 p k := by
    funext ax; apply Fin.ext
    match ax with
    | ⟨0, _⟩ => exact lhs_axis0 _ _
    | ⟨1, _⟩ => exact (lhs_axis1 _ _).trans hk
  have hr : dot_S512x1024_S1024x65536_S512x65536_1_0_0_1_n_n.rhsIdx (ix2 p c)
      ((contrEquiv1 dot_S512x1024_S1024x65536_S512x65536_1_0_0_1_n_n 1024 rfl rfl).symm k) = ix2 k c := by
    funext ax; apply Fin.ext
    match ax with
    | ⟨0, _⟩ => exact (rhs_axis0 _ _).trans hk
    | ⟨1, _⟩ => exact rhs_axis1 _ _
  rw [hl, hr]

/-- The bias made a row and laid along every row, at `(p, c)`: the bias of class `c`. -/
theorem biasRows_apply (b : FVec Ideal S65536 .f32) (p : Fin 512) (c : Fin 65536) :
    broadcastInDim S512x65536 ![0, 1] bcast_S1x65536_S512x65536_0_1 (broadcastInDim S1x65536 ![1] bcast_S65536_S1x65536_1 b) (ix2 p c)
      = b (ix1 c) := by
  refine (broadcastInDim_apply ![0, 1] bcast_S1x65536_S512x65536_0_1 _ (ix2 p c) (ix2 (0 : Fin 1) c) (fun a => ?_)).trans ?_
  · match a with
    | ⟨0, _⟩ => rfl
    | ⟨1, _⟩ => rfl
  · refine broadcastInDim_apply ![1] bcast_S65536_S1x65536_1 b (ix2 (0 : Fin 1) c) (ix1 c) (fun a => ?_)
    match a with
    | ⟨0, _⟩ => rfl

/-- The float word of 1.0 denotes the real one. -/
theorem ofBits_one : Ideal.ofBits .f32 0x3F800000#32 = 1 := by
  -- the word decodes to the significand 2^23 scaled by 2^(-23): a product of two reals, taken inside the coercion
  simp [Ideal.ofBits, Ideal.ieee]
  rw [← EReal.coe_mul]
  norm_num

/-- jax's spelling of the activation on one extended real is `z · σ(z)`. -/
theorem swish_spelled {M B M' B' : EReal} (hM : M = M') (hB : B = B') :
    (M + B) * Ideal.div (Ideal.ofBits .f32 0x3F800000#32) (Ideal.ofBits .f32 0x3F800000#32 + Ideal.exp (-(M + B)))
      = swishAt (M' + B') := by
  rw [hM, hB, ofBits_one]; rfl

/-- The reference's dense layer IS `dense`. -/
theorem linSwish_eq_dense (h : FVec Ideal S512x1024 .f32) (w : FVec Ideal S65536x1024 .f32) (b : FVec Ideal S65536 .f32) :
    Cert.RefRun.linSwish (F := Ideal) h w b = dense h w b := by
  funext i
  obtain ⟨p, c, rfl⟩ : ∃ (p : Fin 512) (c : Fin 65536), i = ix2 p c := ⟨i 0, i 1, eq_ix2 i⟩
  have hM : Host.dotGeneral (F := Ideal) dot_S512x1024_S1024x65536_S512x65536_1_0_0_1_n_n none h
        (transpose S1024x65536 [1, 0] w transposes_S65536x1024_S1024x65536_1_0) (ix2 p c)
      = ∑ k : Fin 1024, h (ix2 p k) * w (ix2 c k) :=
    (hostProduct_apply h (transpose S1024x65536 [1, 0] w transposes_S65536x1024_S1024x65536_1_0) p c).trans
      (Finset.sum_congr rfl fun k _ => by rw [transpose_ix2_apply])
  rw [dense_apply]
  unfold Cert.RefRun.linSwish logitAt
  exact swish_spelled hM (biasRows_apply b p c)

end Cert.RefDense

end
-- ==== Proof.KernelBlock.lean ====
/-
  One grid point of the kernel, entry by entry, over the extended reals.

  The body loads the resident activations `x0` ([512, 1024]), the point's block of weight rows `x1` ([1024, 1024]: 1024
  classes, each a row of 1024 weights) and the block's biases `x2` ([1024]), and stores ONE value: the product of `x0`
  with `x1` contracted over the second axis of BOTH (so entry `(p, q)` pairs row `p` of `x0` with row `q` of `x1`),
  plus the bias of class `q` laid along every row, passed through `z ↦ z · σ(z)`.  The narrowing of the weights to bf16 is
  the identity on extended reals, and the accumulator is the zero splat, so entry `(p, q)` is
  `swishAt ((Σ k, x0[p, k] · x1[q, k]) + x2[q])`.
-/
import proofs.«135931_j81037442941606_1_alg».proof.Proof.Gen.KernelIdeal.Skeleton
import proofs.«135931_j81037442941606_1_alg».proof.Proof.DenseSpec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelBlock

open Idealize.ShloMosaic Idealize.ShloMosaic.ValueIdx Cert.KernelIdeal Cert.KernelIdeal.Gen Cert.DenseSpec

/-! ## The block product's operand indices

The dimension numbers contract axis 1 of each operand and keep axis 0 of each: the left index at output `(p, q)` and
contraction position `k` is `(p, k)`, the right index `(q, k)`. -/

theorem lhs_axis0 (j : S512x1024.Idx) (k : dot_S512x1024_S1024x1024_S512x1024_1_1_0_0_n_n.contr.Idx) :
    (dot_S512x1024_S1024x1024_S512x1024_1_1_0_0_n_n.lhsIdx j k 0).val = (j 0).val := by
  simp [DotDims.lhsIdx, dot_S512x1024_S1024x1024_S512x1024_1_1_0_0_n_n]
  rfl

theorem lhs_axis1 (j : S512x1024.Idx) (k : dot_S512x1024_S1024x1024_S512x1024_1_1_0_0_n_n.contr.Idx) :
    (dot_S512x1024_S1024x1024_S512x1024_1_1_0_0_n_n.lhsIdx j k 1).val = (k ⟨0, by decide⟩).val :=
  dot_S512x1024_S1024x1024_S512x1024_1_1_0_0_n_n.lhsIdx_val_of_single (cl := 1) rfl j k

theorem rhs_axis0 (j : S512x1024.Idx) (k : dot_S512x1024_S1024x1024_S512x1024_1_1_0_0_n_n.contr.Idx) :
    (dot_S512x1024_S1024x1024_S512x1024_1_1_0_0_n_n.rhsIdx j k 0).val = (j 1).val := by
  simp [DotDims.rhsIdx, dot_S512x1024_S1024x1024_S512x1024_1_1_0_0_n_n]
  rfl

theorem rhs_axis1 (j : S512x1024.Idx) (k : dot_S512x1024_S1024x1024_S512x1024_1_1_0_0_n_n.contr.Idx) :
    (dot_S512x1024_S1024x1024_S512x1024_1_1_0_0_n_n.rhsIdx j k 1).val = (k ⟨0, by decide⟩).val :=
  dot_S512x1024_S1024x1024_S512x1024_1_1_0_0_n_n.rhsIdx_val_of_single (cr := 1) rfl j k

/-- The block product into the zero accumulator, at `(p, q)`: row `p` of the left operand against row `q` of the right. -/
theorem blockProduct_apply (a : FVec Ideal S512x1024 .bf16) (w : FVec Ideal S1024x1024 .bf16) (p : Fin 512) (q : Fin 1024) :
    matmul dot_S512x1024_S1024x1024_S512x1024_1_1_0_0_n_n none a w (constant S512x1024 .f32 0x00000000#32) (ix2 p q)
      = ∑ k : Fin 1024, a (ix2 p k) * w (ix2 q k) := by
  show FloatOps.matmul _ none a w (constant S512x1024 .f32 0x00000000#32) (ix2 p q) = _
  rw [Ideal.matmul_constant_zero_apply,
    ← Equiv.sum_comp (contrEquiv1 dot_S512x1024_S1024x1024_S512x1024_1_1_0_0_n_n 1024 rfl rfl).symm]
  refine Finset.sum_congr rfl fun k _ => ?_
  have hk := contrEquiv1_symm_val dot_S512x1024_S1024x1024_S512x1024_1_1_0_0_n_n 1024 rfl rfl k
  have hl : dot_S512x1024_S1024x1024_S512x1024_1_1_0_0_n_n.lhsIdx (ix2 p q)
      ((contrEquiv1 dot_S512x1024_S1024x1024_S512x1024_1_1_0_0_n_n 1024 rfl rfl).symm k) = ix2 p k := by
    funext ax; apply Fin.ext
    match ax with
    | ⟨0, _⟩ => exact lhs_axis0 _ _
    | ⟨1, _⟩ => exact (lhs_axis1 _ _).trans hk
  have hr : dot_S512x1024_S1024x1024_S512x1024_1_1_0_0_n_n.rhsIdx (ix2 p q)
      ((contrEquiv1 dot_S512x1024_S1024x1024_S512x1024_1_1_0_0_n_n 1024 rfl rfl).symm k) = ix2 q k := by
    funext ax; apply Fin.ext
    match ax with
    | ⟨0, _⟩ => exact rhs_axis0 _ _
    | ⟨1, _⟩ => exact (rhs_axis1 _ _).trans hk
  rw [hl, hr]

/-- The bias vector, cast to one row and laid along every row, at `(p, q)`: the bias of class `q`. -/
theorem biasRows_apply (x2 : FVec Ideal S1024 .f32) (p : Fin 512) (q : Fin 1024) :
    broadcastTo S512x1024
      (shapeCast S1x1024 (shapeCast S1x1024 x2 shapeCasts_S1024_S1x1024) shapeCasts_S1x1024_S1x1024)
      broadcasts_S1x1024_S512x1024 (ix2 p q) = x2 (ix1 q) := by
  rw [shapeCast_self]
  refine (broadcastTo_apply _ broadcasts_S1x1024_S512x1024 (ix2 p q) (ix2 (0 : Fin 1) q) (fun a => ?_)).trans ?_
  · match a with
    | ⟨0, _⟩ => rfl
    | ⟨1, _⟩ => rfl
  · exact shapeCast_a_1a_apply x2 shapeCasts_S1024_S1x1024 0 q

/-- `z · σ(z)` of a sum respects equal summands. -/
theorem swish_congr {M B M' B' : EReal} (hM : M = M') (hB : B = B') :
    (M + B) * Ideal.logistic (M + B) = (M' + B') * Ideal.logistic (M' + B') := by rw [hM, hB]

/-- The stored value at `(p, q)`: the activation of the block's logit.  Unfolded, the payload at an index IS
    `(M + B) · σ(M + B)` for `M` the block product and `B` the bias row there (each pointwise operation reads its operands
    at the same index); `M` and `B` are the two lemmas above, the identity cast and the narrowing dropped entry by entry. -/
theorem payload_apply (x0 : Vec Ideal S512x1024 .bf16) (x1 : Vec Ideal S1024x1024 .f32) (x2 : Vec Ideal S1024 .f32)
    (p : Fin 512) (q : Fin 1024) :
    k0_pay1 (F := Ideal) x0 x1 x2 (ix2 p q)
      = swishAt ((∑ k : Fin 1024, x0 (ix2 p k) * x1 (ix2 q k)) + x2 (ix1 q)) := by
  have hM : matmul (F := Ideal) dot_S512x1024_S1024x1024_S512x1024_1_1_0_0_n_n none
        (shapeCast S512x1024 x0 shapeCasts_S512x1024_S512x1024) (truncf .bf16 x1 bitsLt_bf16_f32)
        (constant S512x1024 .f32 0x00000000#32) (ix2 p q)
      = ∑ k : Fin 1024, x0 (ix2 p k) * x1 (ix2 q k) :=
    (blockProduct_apply (shapeCast S512x1024 x0 shapeCasts_S512x1024_S512x1024) (truncf .bf16 x1 bitsLt_bf16_f32) p q).trans
      (Finset.sum_congr rfl fun k _ => by rw [shapeCast_self]; rfl)
  unfold k0_pay1 swishAt
  exact swish_congr hM (biasRows_apply x2 p q)

end Cert.KernelBlock

end
-- ==== Proof.DenseArray.lean ====
/-
  The kernel's output array after the region, over the extended reals: entry `(p, c)` of the [512, 65536] array is
  `swishAt (logitAt h w b p c)` for `h`, `w`, `b` the three arrays the region reads, as it finds them.

  Point `t` of the 64-point grid stages ALL of `h`, weight rows `1024·t … 1024·t + 1023` and their biases, and writes
  back columns `1024·t … 1024·t + 1023` of every row.  So what point `t` writes at `(p, q)` of its block, the block's
  logit of row `p` against the block's class `q`, is the array's logit of row `p` against class `1024·t + q`: the block
  is `dense h w b` read through the block's rectangle.  The 64 rectangles tile the array (class `c` lies in the block
  of point `c / 1024`), so the array ends at `dense h w b` everywhere.
-/
import proofs.«135931_j81037442941606_1_alg».proof.Proof.Gen.KernelIdeal.Frame
import proofs.«135931_j81037442941606_1_alg».proof.Proof.KernelBlock
import Idealize.ShloMosaic.Lib.Pipeline.Value

set_option maxRecDepth 16384

noncomputable section

open scoped BigOperators

namespace Cert.DenseArray

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.DenseSpec Cert.KernelBlock

variable (m : (ℓ : Loc nD τ sig) → Buf (Elt Ideal) ℓ)

theorem zeroOffsets2 : (![0, 0] : Fin 2 → Nat) = fun _ => 0 := funext fun a => by fin_cases a <;> rfl
theorem zeroOffsets1 : (![0] : Fin 1 → Nat) = fun _ => 0 := funext fun a => by fin_cases a <;> rfl

/-- The printed index maps over the grid: the activations' block never moves, the weights', the biases' and the
    output's block index is the point's number, which is below 64. -/
theorem blockIndices : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 1) = t.val
    ∧ win0_3.index t (0 : Fin 2) = 0 ∧ win0_3.index t (1 : Fin 2) = t.val
    ∧ t.val ≤ 63 :=
  (by decide +kernel : ∀ t : Fin grid0.N, _)

/-- Every block column of the output is some point's. -/
theorem blockOnto : ∀ q : Fin 64, ∃ t : Fin cfg0.N, win0_3.index t (0 : Fin 2) = 0 ∧ win0_3.index t (1 : Fin 2) = q.val :=
  (by decide +kernel : ∀ q : Fin 64, ∃ t : Fin grid0.N, win0_3.index t (0 : Fin 2) = 0 ∧ win0_3.index t (1 : Fin 2) = q.val)

/-- The three arrays the region reads, as it finds them. -/
abbrev hArr (c : Dev nD) : S512x1024.Idx → Elt Ideal .bf16 := V m c main_v27
abbrev wArr (c : Dev nD) : S65536x1024.Idx → Elt Ideal .f32 := V m c main_arg1
abbrev bArr (c : Dev nD) : S65536.Idx → Elt Ideal .f32 := V m c main_arg2

/-- Point `t`'s block of the activations is the whole array. -/
theorem readH (c : Dev nD) (t : Fin cfg0.N) (p : Fin 512) (k : Fin 1024) :
    iblk m c 0 t (ix2 p k) = hArr m c (ix2 p k) := by
  obtain ⟨e00, e01, -, -, -, -, -, -⟩ := blockIndices t
  show V m c main_v27 (((cfg0.win 0).blk t).view.emb (ix2 p k)) = V m c main_v27 (ix2 p k)
  refine congrArg (V m c main_v27) (funext fun a => Fin.ext ?_)
  match a with
  | ⟨0, _⟩ => show win0_0.index t (0 : Fin 2) * 512 + 1 * p.val = p.val; omega
  | ⟨1, _⟩ => show win0_0.index t (1 : Fin 2) * 1024 + 1 * k.val = k.val; omega

/-- Row `q` of point `t`'s block of the weights is row `1024·t + q` of the array. -/
theorem readW (c : Dev nD) (t : Fin cfg0.N) (q : Fin 1024) (k : Fin 1024) (cl : Fin 65536) (hcl : cl.val = t.val * 1024 + q.val) :
    iblk m c 1 t (ix2 q k) = wArr m c (ix2 cl k) := by
  obtain ⟨-, -, e10, e11, -, -, -, -⟩ := blockIndices t
  show V m c main_arg1 (((cfg0.win 1).blk t).view.emb (ix2 q k)) = V m c main_arg1 (ix2 cl k)
  refine congrArg (V m c main_arg1) (funext fun a => Fin.ext ?_)
  match a with
  | ⟨0, _⟩ => show win0_1.index t (0 : Fin 2) * 1024 + 1 * q.val = cl.val; omega
  | ⟨1, _⟩ => show win0_1.index t (1 : Fin 2) * 1024 + 1 * k.val = k.val; omega

/-- Entry `q` of point `t`'s block of the biases is entry `1024·t + q` of the array. -/
theorem readB (c : Dev nD) (t : Fin cfg0.N) (q : Fin 1024) (cl : Fin 65536) (hcl : cl.val = t.val * 1024 + q.val) :
    iblk m c 2 t (ix1 q) = bArr m c (ix1 cl) := by
  obtain ⟨-, -, -, -, e2, -, -, -⟩ := blockIndices t
  show V m c main_arg2 (((cfg0.win 2).blk t).view.emb (ix1 q)) = V m c main_arg2 (ix1 cl)
  refine congrArg (V m c main_arg2) (funext fun a => Fin.ext ?_)
  match a with
  | ⟨0, _⟩ => show win0_2.index t (0 : Fin 1) * 1024 + 1 * q.val = cl.val; omega

/-- WHAT POINT `t` WRITES BACK is `dense` of the three arrays read through the point's block. -/
theorem flushed_dense (c : Dev nD) (t : Fin cfg0.N) :
    (dats m 0 c).flushed 3 t
      = ((cfg0.win 3).blk t).view.read (Elt Ideal) (dense (hArr m c) (wArr m c) (bArr m c)) := by
  show (cfg0.win 3).cut (grid0.coords t) ((dats m 0 c).after 3 t) = _
  rw [after0_3]
  unfold out0_3
  rw [View.canon_unit_zero zeroOffsets2]
  simp only [View.ld_unit_zero (S := S512x1024) zeroOffsets2, View.ld_unit_zero (S := S1024x1024) zeroOffsets2,
    View.ld_unit_zero (S := S1024) zeroOffsets1]
  obtain ⟨-, -, -, -, -, e30, e31, ht⟩ := blockIndices t
  funext j
  obtain ⟨p, q, rfl⟩ : ∃ (p : Fin 512) (q : Fin 1024), j = ix2 p q := ⟨j 0, j 1, eq_ix2 j⟩
  have hq : q.val < 1024 := q.isLt
  let cl : Fin 65536 := ⟨t.val * 1024 + q.val, by omega⟩
  have hcl : cl.val = t.val * 1024 + q.val := rfl
  have hout : ((cfg0.win 3).blk t).view.emb (ix2 p q) = ix2 p cl := by
    funext a; apply Fin.ext
    match a with
    | ⟨0, _⟩ => show win0_3.index t (0 : Fin 2) * 512 + 1 * p.val = p.val; omega
    | ⟨1, _⟩ => show win0_3.index t (1 : Fin 2) * 1024 + 1 * q.val = cl.val; omega
  show k0_pay1 (F := Ideal) (iblk m c 0 t) (iblk m c 1 t) (iblk m c 2 t) (ix2 p q)
      = dense (hArr m c) (wArr m c) (bArr m c) (((cfg0.win 3).blk t).view.emb (ix2 p q))
  rw [hout, dense_apply]
  refine (payload_apply (iblk m c 0 t) (iblk m c 1 t) (iblk m c 2 t) p q).trans ?_
  unfold logitAt
  rw [readB m c t q cl hcl]
  exact congrArg (fun s => swishAt (s + bArr m c (ix1 cl)))
    (Finset.sum_congr rfl fun k _ => by rw [readH m c t p k, readW m c t q k cl hcl])

/-- An index of the array is in point `t`'s block iff each coordinate is in the block's range on its axis. -/
theorem mem_block (t : Fin cfg0.N) (i : S512x65536.Idx) :
    i ∈ ((cfg0.win 3).blk t).view.set
      ↔ ∀ a : Fin 2, win0_3.index t a * S512x1024.size a ≤ (i a).val
          ∧ (i a).val < win0_3.index t a * S512x1024.size a + S512x1024.size a := by
  show i ∈ ((View.whole main_v28).slice (win0_3.rect t)).set ↔ _
  rw [View.set_slice_whole, Rect.mem_set_unit]
  exact Iff.rfl

/-- The blocks cover the array: class `c` is in the block of point `c / 1024`. -/
theorem covered (i : S512x65536.Idx) :
    ∃ t : Fin cfg0.N, (cfg0.win 3).flush t = true ∧ i ∈ ((cfg0.win 3).blk t).view.set := by
  have hi0 : (i 0).val < 512 := (i 0).isLt
  have hi1 : (i 1).val < 65536 := (i 1).isLt
  obtain ⟨t, h0, h1⟩ := blockOnto ⟨(i 1).val / 1024, by omega⟩
  have h1' : win0_3.index t (1 : Fin 2) = (i 1).val / 1024 := h1
  refine ⟨t, flush0_3 t, ?_⟩
  rw [mem_block]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-- THE ARRAY after the region: `dense` of the three arrays the region reads. -/
theorem denseArray (c : Dev nD) :
    (dats m 0 c).arrAt 3 cfg0.N = dense (hArr m c) (wArr m c) (bArr m c) :=
  (dats m 0 c).arrAt_eq_of_cover 3 (dense (hArr m c) (wArr m c) (bArr m c)) (fun t _ => flushed_dense m c t) covered

end Cert.DenseArray

end
-- ==== Proof.KernelRun.lean ====
/-
  The kernel's program run over the extended reals, with its result buffer named.

  `@main` is 57 host operations, the region, and 23 host operations.  Read at the buffer the region's first window
  stages, the 57 are `normRows` of three arguments, narrowed to bf16 (the identity here); the region leaves its output
  array at `dense` of that, of the weights and of the biases (the two argument arrays no earlier operation writes);
  and read at the result buffer the 23 are `aggregate` of the region's output array, the edge weights and the edge
  list.  The arguments end as launched.
-/
import proofs.«135931_j81037442941606_1_alg».proof.Proof.Gen.KernelIdeal.Frame
import proofs.«135931_j81037442941606_1_alg».proof.Proof.HostChain
import proofs.«135931_j81037442941606_1_alg».proof.Proof.DenseArray
import Idealize.ShloMosaic.Lib.StableHlo.Run

set_option maxRecDepth 16384

noncomputable section

namespace Cert.KernelRun

open Idealize.ShloMosaic Idealize.ShloMosaic.TcCoe Idealize.SL.Sem Idealize.ShloMosaic.StableHlo
open Idealize.ShloMosaic.Pipeline (Dat Cfg Window)
open Cert.KernelIdeal Cert.KernelIdeal.Gen Cert.DenseSpec Cert.DenseArray Cert.HostChain

/-! ## The two host stretches, over any contents -/

section AnyContents
variable {F : FTy → Type} [FloatOps F]

attribute [local irreducible] Host.gather Host.reduceAdd in
set_option maxHeartbeats 1600000 in
/-- The operations before the region, read at the buffer the region's first window stages. -/
theorem before_region (W : Valuation τ sig (Elt F)) :
    after (List.flatten [hostOps0, hostOps0_1, hostOps0_2]) W (main_v27 : DevRef τ sig)
      = truncf .bf16 (normRows (W (main_arg0 : DevRef τ sig)) (W (main_arg4 : DevRef τ sig)) (W (main_arg5 : DevRef τ sig)))
          bitsLt_bf16_f32 := by
  simp only [hostOps0, hostOps0_1, hostOps0_2, List.flatten_cons, List.flatten_nil, List.append_nil, List.cons_append,
    List.nil_append]
  after_results_simp
  rfl

attribute [local irreducible] Host.gather Host.scatterAdd in
set_option maxHeartbeats 1600000 in
/-- The operations after the region, read at the result buffer. -/
theorem after_region (W : Valuation τ sig (Elt F)) :
    after hostOps1 W (main_v48 : DevRef τ sig)
      = aggregate (W (main_v28 : DevRef τ sig)) (W (main_arg3 : DevRef τ sig)) (W (main_arg6 : DevRef τ sig)) := by
  after_results_simp
  rfl

theorem aggregate_congr {z z' : FVec F S512x65536 .f32} {a a' : FVec F S262144 .f32} {e e' : IVec S2x262144 32}
    (hz : z = z') (ha : a = a') (he : e = e') : aggregate z a e = aggregate z' a' e' := by rw [hz, ha, he]

end AnyContents

theorem dense_congr {h h' : (⟨2, ![512, 1024]⟩ : Shape).Idx → EReal} {w w' : (⟨2, ![65536, 1024]⟩ : Shape).Idx → EReal}
    {b b' : (⟨1, ![65536]⟩ : Shape).Idx → EReal} (hh : h = h') (hw : w = w') (hb : b = b') :
    dense h w b = dense h' w' b' := by rw [hh, hw, hb]

/-! ## At the launch memory -/

variable (m : (ℓ : Loc nD τ sig) → Buf (Elt Ideal) ℓ) (ρ : Dev nD → PrngReg)

/-- What the region finds in its first window's array. -/
theorem entry_rows (c : Dev nD) :
    hArr m c = truncf (F := Ideal) .bf16 (normRows (F := Ideal) (m ((c.tc : Thread nD τ).loc main_arg0)) (m ((c.tc : Thread nD τ).loc main_arg4))
      (m ((c.tc : Thread nD τ).loc main_arg5))) bitsLt_bf16_f32 :=
  before_region (fun b => m (c, b))

/-- The region's output array: `dense` of the normalised rows, the weights and the biases as launched. -/
theorem region_out (c : Dev nD) :
    (dats m 0 c).arrAt 3 cfg0.N
      = dense (truncf (F := Ideal) .bf16 (normRows (F := Ideal) (m ((c.tc : Thread nD τ).loc main_arg0)) (m ((c.tc : Thread nD τ).loc main_arg4))
            (m ((c.tc : Thread nD τ).loc main_arg5))) bitsLt_bf16_f32)
          (m ((c.tc : Thread nD τ).loc main_arg1)) (m ((c.tc : Thread nD τ).loc main_arg2)) :=
  (denseArray m c).trans (dense_congr (entry_rows m c) (V_main_arg1 m c) (V_main_arg2 m c))

/-- The result buffer as the operations after the region leave it. -/
theorem result_eq (c : Dev nD) :
    Pipeline.afterTail₀ cfgs (dats m) 0 (V0 m) [hostOps1] c main_v48
      = aggregate (F := Ideal) ((dats m 0 c).arrAt 3 cfg0.N) (m ((c.tc : Thread nD τ).loc main_arg3)) (m ((c.tc : Thread nD τ).loc main_arg6)) := by
  unfold Pipeline.afterTail₀
  show after hostOps1 _ (Proc.devRef .tc main_v48) = _
  exact (after_region _).trans (aggregate_congr
    (Pipeline.withArrays_arr spec0 launch0.win.arr_inj c _ _ 3)
    ((Pipeline.withArrays_of_ne _ c (V0 m c) _ main_arg3 (by exact (by decide : ∀ w, Pipeline.arrRef spec0 w ≠ main_arg3))).trans
      (V_main_arg3 m c))
    ((Pipeline.withArrays_of_ne _ c (V0 m c) _ main_arg6 (by exact (by decide : ∀ w, Pipeline.arrRef spec0 w ≠ main_arg6))).trans
      (V_main_arg6 m c)))

/-- Every weakly fair execution of the kernel's program terminates with the result buffer at the three stages composed
    and the arguments as launched. -/
theorem run : θ_run defs (onTc (τ := τ) (main (F := Ideal))) ⟨m, fun _ => 0, ρ⟩ fun r => ∀ c : Dev nD,
      r.2.mem ((c.tc : Thread nD τ).loc main_v48)
        = aggregate (F := Ideal)
            (dense (truncf (F := Ideal) .bf16 (normRows (F := Ideal) (m ((c.tc : Thread nD τ).loc main_arg0)) (m ((c.tc : Thread nD τ).loc main_arg4))
                (m ((c.tc : Thread nD τ).loc main_arg5))) bitsLt_bf16_f32)
              (m ((c.tc : Thread nD τ).loc main_arg1)) (m ((c.tc : Thread nD τ).loc main_arg2)))
            (m ((c.tc : Thread nD τ).loc main_arg3)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v48 (Pipeline.mem_restRefs_of main_v48 (by decide) (by decide))).trans
        ((result_eq m c).trans (aggregate_congr (region_out m c) rfl rfl)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelRun

end
-- ==== Proof.lean ====
/-
  A dense layer with a swish activation, tiled over its 65536 classes, against the same layer written whole.

  Both programs gather 512 rows `enc[bi[n], ti[n], :]` of the encoder output and normalise them column by column over
  the 512 rows (`normRows`); both end by adding to the logits their weighted sums along the edges of a sparse adjacency
  (`aggregate`: columns gathered by the edge's source, scaled, scatter-added by its target).  Between the two the
  reference computes `z = h · wᵀ + b` and `z · (1 / (1 + exp (−z)))` on whole arrays, and the kernel computes, for each
  of 64 blocks of 1024 classes, the block's logits from ALL of `h` and the block's weight rows and biases, then
  `z · σ(z)`.  Over the extended reals both are entry `(p, c) ↦ swishAt ((Σ k, h[p, k] · w[c, k]) + b[c])`: a block's
  entry `(p, q)` at point `t` is the array's entry `(p, 1024·t + q)`, the blocks tile the array, the host product
  against the transposed weights pairs the same factors, `σ` is by definition the quotient jax spells, and narrowing
  the activations or the weights to bf16 is the identity.  The sums are finite sums in a commutative monoid, so no
  entry has to be finite and the precondition is never opened.

  The two shared stretches are never looked into: both results are `aggregate (dense (normRows …) w b) a e` of
  arguments that agree.
-/
import proofs.«135931_j81037442941606_1_alg».proof.Defs
import proofs.«135931_j81037442941606_1_alg».proof.Proof.Gen.Kernel
import proofs.«135931_j81037442941606_1_alg».proof.Proof.Gen.Kernel.Skeleton
import proofs.«135931_j81037442941606_1_alg».proof.Proof.Gen.Kernel.Launch
import proofs.«135931_j81037442941606_1_alg».proof.Proof.Gen.Kernel.Points
import proofs.«135931_j81037442941606_1_alg».proof.Proof.Gen.Kernel.Frame
import proofs.«135931_j81037442941606_1_alg».proof.Proof.Gen.KernelIdeal
import proofs.«135931_j81037442941606_1_alg».proof.Proof.Gen.KernelIdeal.Skeleton
import proofs.«135931_j81037442941606_1_alg».proof.Proof.Gen.KernelIdeal.Launch
import proofs.«135931_j81037442941606_1_alg».proof.Proof.Gen.KernelIdeal.Points
import proofs.«135931_j81037442941606_1_alg».proof.Proof.Gen.KernelIdeal.Frame
import proofs.«135931_j81037442941606_1_alg».proof.Proof.Gen.ReferenceIdeal
import proofs.«135931_j81037442941606_1_alg».proof.Proof.Gen.Pre_finite_inputs
import proofs.«135931_j81037442941606_1_alg».proof.Proof.RefRun
import proofs.«135931_j81037442941606_1_alg».proof.Proof.RefDense
import proofs.«135931_j81037442941606_1_alg».proof.Proof.KernelRun
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations none of which writes an argument. -/
theorem frame_reference : Cert.frame_ReferenceIdeal := fun m ρ _ =>
  (θ_run Cert.ReferenceIdeal.defs _ _).mono (fun _ h c => (h c).2) (Cert.RefRun.run (F := Ideal) m ρ)

/-- The ideal pass rewrote nothing: the idealization is the program's own text read over the extended reals. -/
theorem preserves : Cert.preserves_Kernel_KernelIdeal := trivial

/-- From memories agreeing on the seven arguments both programs end with the result at
    `aggregate (dense (normRows enc bi ti) w b) a e`: the kernel's run has it with the normalised rows narrowed to
    bf16, which changes no entry; the reference's has `linSwish` where the kernel has `dense`, and the two are one
    function. -/
theorem algebraic : Cert.algebraic_KernelIdeal_ReferenceIdeal := by
  intro m ρ m' ρ' _ hagree
  refine ⟨_, Cert.KernelRun.run m ρ, ?_⟩
  refine (θ_run Cert.ReferenceIdeal.defs _ _).mono (fun _ h c => ⟨(h c).1.trans ?_, (h c).2⟩)
    (Cert.RefRun.run (F := Ideal) m' ρ')
  obtain ⟨e0, e1, e2, e3, e4, e5, e6⟩ := hagree c
  rw [e0, e1, e2, e3, e4, e5, e6, Cert.RefDense.linSwish_eq_dense]
  exact Cert.KernelRun.aggregate_congr (Cert.KernelRun.dense_congr (funext fun _ => rfl) rfl rfl) rfl rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
